-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64 .f32) (main_arg5 : FVec F S64x32 .f32) (main_arg6 : FVec F S32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S8192x128 .f32) (main_arg1 : FVec F S8192x8192 .f32) (main_arg2 : FVec F S8192x8192 .f32) (main_arg3 : FVec F S128x64 .f32) (main_arg4 : FVec F S64 .f32) (main_arg5 : FVec F S64x32 .f32) (main_arg6 : FVec F S32 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x64 : Shape := ⟨2, ![1, 64]⟩
abbrev S1x32 : Shape := ⟨2, ![1, 32]⟩
abbrev S8192x64 : Shape := ⟨2, ![8192, 64]⟩
abbrev S256x4096 : Shape := ⟨2, ![256, 4096]⟩
abbrev S256x64 : Shape := ⟨2, ![256, 64]⟩
abbrev S4096x64 : Shape := ⟨2, ![4096, 64]⟩
abbrev S8192x32 : Shape := ⟨2, ![8192, 32]⟩
abbrev S256x32 : Shape := ⟨2, ![256, 32]⟩
abbrev S4096x32 : Shape := ⟨2, ![4096, 32]⟩

abbrev nBuf : Space → Nat
  | .hbm => 11
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x64, .f32⟩
  | .hbm, ⟨8, _⟩ => ⟨S1x32, .f32⟩
  | .hbm, ⟨9, _⟩ => ⟨S8192x64, .f32⟩
  | .hbm, ⟨10, _⟩ => ⟨S8192x32, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S8192x128, .f32⟩
  | .local _ .vmem, ⟨5, _⟩ => ⟨S128x64, .f32⟩
  | .local _ .vmem, ⟨6, _⟩ => ⟨S1x64, .f32⟩
  | .local _ .vmem, ⟨7, _⟩ => ⟨S256x64, .f32⟩
  | .local _ .vmem, ⟨8, _⟩ => ⟨S256x64, .f32⟩
  | .local _ .vmem, ⟨9, _⟩ => ⟨S8192x64, .bf16⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | .local _ .vmem, ⟨14, _⟩ => ⟨S8192x64, .f32⟩
  | .local _ .vmem, ⟨15, _⟩ => ⟨S64x32, .f32⟩
  | .local _ .vmem, ⟨16, _⟩ => ⟨S1x32, .f32⟩
  | .local _ .vmem, ⟨17, _⟩ => ⟨S256x32, .f32⟩
  | .local _ .vmem, ⟨18, _⟩ => ⟨S256x32, .f32⟩
  | .local _ .vmem, ⟨19, _⟩ => ⟨S8192x32, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64_S1x64 : S64.ShapeCasts S1x64
  shapeCasts_S32_S1x32 : S32.ShapeCasts S1x32
  inb_S8192x128_S8192x128_0_0 : ∀ a, (![0, 0] : Fin 2 → Nat) a + S8192x128.size a ≤ S8192x128.size a
  h_S8192x128 : 0 < S8192x128.numel
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  packedbf16_S8192x64_S8192x64_0_0 : (Rect.unit (s := S8192x64) ![0, 0] S8192x64.size inb_S8192x64_S8192x64_0_0).PackedRows (EltTy.packing .bf16)
  inb_S256x4096_S256x4096_0_0 : ∀ a, (![0, 0] : Fin 2 → Nat) a + S256x4096.size a ≤ S256x4096.size a
  h_S256x4096 : 0 < S256x4096.numel
  inb_S8192x64_S4096x64_0_0 : ∀ a, (![0, 0] : Fin 2 → Nat) a + S4096x64.size a ≤ S8192x64.size a
  h_S4096x64 : 0 < S4096x64.numel
  inb_S8192x64_S4096x64_4096_0 : ∀ a, (![4096, 0] : Fin 2 → Nat) a + S4096x64.size a ≤ S8192x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  inb_S64x32_S64x32_0_0 : ∀ a, (![0, 0] : Fin 2 → Nat) a + S64x32.size a ≤ S64x32.size a
  h_S64x32 : 0 < S64x32.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  packedbf16_S8192x32_S8192x32_0_0 : (Rect.unit (s := S8192x32) ![0, 0] S8192x32.size inb_S8192x32_S8192x32_0_0).PackedRows (EltTy.packing .bf16)
  inb_S8192x32_S4096x32_0_0 : ∀ a, (![0, 0] : Fin 2 → Nat) a + S4096x32.size a ≤ S8192x32.size a
  h_S4096x32 : 0 < S4096x32.numel
  inb_S8192x32_S4096x32_4096_0 : ∀ a, (![4096, 0] : Fin 2 → Nat) a + S4096x32.size a ≤ S8192x32.size a
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  dot_S8192x128_S128x64_S8192x64_1_0_0_1_n_n_wf : DotDims.WF S8192x128 S128x64 S8192x64 [1] [0] [0] [1] [] []
  dot_S256x4096_S4096x64_S256x64_1_0_0_1_n_n_wf : DotDims.WF S256x4096 S4096x64 S256x64 [1] [0] [0] [1] [] []
  dot_S8192x64_S64x32_S8192x32_1_0_0_1_n_n_wf : DotDims.WF S8192x64 S64x32 S8192x32 [1] [0] [0] [1] [] []
  dot_S256x4096_S4096x32_S256x32_1_0_0_1_n_n_wf : DotDims.WF S256x4096 S4096x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x8192.size a
  hwx0_0 : ∀ i : grid0.Coords, EltTy.bits .f32 = 32 ∨ (Rect.block (s := S8192x8192) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x8192.size a
  hwx0_1 : ∀ i : grid0.Coords, EltTy.bits .f32 = 32 ∨ (Rect.block (s := S8192x8192) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S8192x64.size a
  hwx0_5 : ∀ i : grid0.Coords, EltTy.bits .f32 = 32 ∨ (Rect.block (s := S8192x64) S256x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x8192.size a
  hwx1_0 : ∀ i : grid1.Coords, EltTy.bits .f32 = 32 ∨ (Rect.block (s := S8192x8192) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x8192.size a
  hwx1_1 : ∀ i : grid1.Coords, EltTy.bits .f32 = 32 ∨ (Rect.block (s := S8192x8192) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .f32 = 32 ∨ (Rect.block (s := S8192x64) S8192x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x32.size a ≤ S8192x32.size a
  hwx1_5 : ∀ i : grid1.Coords, EltTy.bits .f32 = 32 ∨ (Rect.block (s := S8192x32) S256x32.size (cc1_transform_5 i) (hinb1_5 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf

abbrev win0_0 : Pipeline.Window sig grid0 :=
  Pipeline.Window.ofSpec (Memref.whole main_arg2) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S256x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x32 : Shape := ⟨2, ![64, 32]⟩
abbrev S32 : Shape := ⟨1, ![32]⟩
abbrev S8192x64 : Shape := ⟨2, ![8192, 64]⟩
abbrev S1x64 : Shape := ⟨2, ![1, 64]⟩
abbrev S_ : Shape := ⟨0, ![]⟩
abbrev S8192x32 : Shape := ⟨2, ![8192, 32]⟩
abbrev S1x32 : Shape := ⟨2, ![1, 32]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S8192x64, .f32⟩
  | .hbm, ⟨8, _⟩ => ⟨S8192x64, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S8192x32, .f32⟩
  | .hbm, ⟨16, _⟩ => ⟨S8192x32, .f32⟩
  | .hbm, ⟨17, _⟩ => ⟨S1x32, .f32⟩
  | .hbm, ⟨18, _⟩ => ⟨S8192x32, .f32⟩
  | .hbm, ⟨19, _⟩ => ⟨S8192x32, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x32_S8192x32_1_0_0_1_n_n_wf : DotDims.WF S8192x64 S64x32 S8192x32 [1] [0] [0] [1] [] []
  dot_S8192x8192_S8192x32_S8192x32_1_0_0_1_n_n_wf : DotDims.WF S8192x8192 S8192x32 S8192x32 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.BitsR0.lean ====
import proofs.«181717_g4698694221856_cont_8to1c4_439_7_alg».proof.Proof.Gen.Kernel.Launch
import proofs.«181717_g4698694221856_cont_8to1c4_439_7_alg».proof.Proof.Gen.Kernel.Skeleton
import proofs.«181717_g4698694221856_cont_8to1c4_439_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSep_eq_bigSepL_of_eq bigSep_congr)

variable {F : FTy → Type} [FloatOps F]

local notation "𝕄" => MT nD τ sig Unit (Elt F) ℕ (UR sig nD τ) ℕ

/-! # One graph-convolution layer as a pipelined kernel: the body's runs, the proof data, the body obligation

The body runs at 32 grid points. At the first it multiplies the whole source matrix by the weight matrix and keeps the
product in a scratch buffer; at every point it multiplies the point's two column halves of a 256-row block of the dense
matrix by the two row halves of that scratch, adds the two products and the bias row, and stores the 256-row block of the
result. So after any point the scratch holds one fixed matrix, the projection, and what the body leaves in the output
buffer at a point is one fixed function of the point's blocks and of that matrix. -/

/-- The body's branch condition from the grid coordinate: it is the first grid point. -/
abbrev cond (i : grid0.Coords) : Prop := (Scalar.cmpi .ne (Scalar.extui (Scalar.cmpi .eq (BitVec.ofNat 32 (i 0).val) 0#32)) 0#32) = 1#1
theorem hcond : ∀ t : Fin cfg0.N, cond (grid0.coords t) ↔ t.val = 0 :=
  (by decide +kernel : ∀ t : Fin grid0.N, cond (grid0.coords t) ↔ t.val = 0)

/-! ## The rectangles the body loads and stores through -/

abbrev rA : Rect S256x4096 := Rect.unit (s := S256x4096) ![0, 0] S256x4096.size inb_S256x4096_S256x4096_0_0
abbrev rX : Rect S8192x128 := Rect.unit (s := S8192x128) ![0, 0] S8192x128.size inb_S8192x128_S8192x128_0_0
abbrev rW : Rect S128x64 := Rect.unit (s := S128x64) ![0, 0] S128x64.size inb_S128x64_S128x64_0_0
abbrev rB : Rect S1x64 := Rect.unit (s := S1x64) ![0, 0] S1x64.size inb_S1x64_S1x64_0_0
abbrev rO : Rect S256x64 := Rect.unit (s := S256x64) ![0, 0] S256x64.size inb_S256x64_S256x64_0_0
abbrev rS : Rect S8192x64 := Rect.unit (s := S8192x64) ![0, 0] S8192x64.size inb_S8192x64_S8192x64_0_0
abbrev rLo : Rect S8192x64 := Rect.unit (s := S8192x64) ![0, 0] S4096x64.size inb_S8192x64_S4096x64_0_0
abbrev rHi : Rect S8192x64 := Rect.unit (s := S8192x64) ![4096, 0] S4096x64.size inb_S8192x64_S4096x64_4096_0

/-- What the body leaves in the output buffer: its one store's payload, from the two column-half blocks `x1`, `x2`, the bias
    row `x5` and the scratch's contents `xs` read through its two row halves. -/
def outO (x1 x2 : Vec F S256x4096 .f32) (x5 : Vec F S1x64 .f32) (xs : Vec F S8192x64 .bf16) : Vec F S256x64 .f32 :=
  View.canon [⟨rO, k0_pay2 (View.ld x1 rA) (View.ld xs rLo) (View.ld x2 rA) (View.ld xs rHi) (View.ld x5 rB)⟩]

/-- What the first point leaves in the scratch: the projection of the source `x3` by the weights `x4`. -/
def scr (x3 : Vec F S8192x128 .f32) (x4 : Vec F S128x64 .f32) : Vec F S8192x64 .bf16 :=
  View.canon [⟨rS, k0_pay1 (View.ld x3 rX) (View.ld x4 rW)⟩]

/-- The one store into the output buffer covers it. -/
theorem coverO (p0 : Vec F S256x64 .f32) (y : S256x64.Idx) :
    ∃ pc ∈ ([⟨rO, p0⟩] : List (View.Piece (Elt F) S256x64 .f32)), y ∈ pc.1.set :=
  View.cover_of_tiled [⟨rO, p0⟩] S256x64.size (by rfl) y
/-- The one store into the scratch covers it. -/
theorem coverS (p0 : Vec F S8192x64 .bf16) (y : S8192x64.Idx) :
    ∃ pc ∈ ([⟨rS, p0⟩] : List (View.Piece (Elt F) S8192x64 .bf16)), y ∈ pc.1.set :=
  View.cover_of_tiled [⟨rS, p0⟩] S8192x64.size (by rfl) y

/-! ## The body's two runs -/

set_option maxHeartbeats 1000000 in
/-- At the first grid point: the scratch is at anything; the body fills it with the projection, reads its two halves back and
    stores the output block computed from them. -/
theorem run_first (c : Dev nD) (E : Set ℕ) (i : grid0.Coords) (hc : cond i)
    (arg1 : Memref sig .tc .vmem S256x4096 .f32) (harg1 : arg1.IsWhole) (arg2 : Memref sig .tc .vmem S256x4096 .f32) (harg2 : arg2.IsWhole)
    (arg3 : Memref sig .tc .vmem S8192x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S256x64 .f32) (harg6 : arg6.IsWhole)
    (arg7 : Memref sig .tc .vmem S8192x64 .bf16) (harg7 : arg7.IsWhole)
    (x1 x2 : Vec F S256x4096 .f32) (x3 : Vec F S8192x128 .f32) (x4 : Vec F S128x64 .f32) (x5 : Vec F S1x64 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (∃ d, owns (c : Thread nD τ) arg7 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
            ∗ owns (c : Thread nD τ) arg6 fullShare (outO x1 x2 x5 (scr x3 x4)) ∗ owns (c : Thread nD τ) arg7 fullShare (scr x3 x4)) -∗ K ⟨⟩))
      ⊢ wp frame (wpE (defs₀ (F := F)) Variants.none c none) E (cc0__layer_body i arg1 harg1 arg2 harg2 arg3 harg3 arg4 harg4 arg5 harg5 arg6 harg6 arg7 harg7) K := by
  simp only [cc0__layer_body_eq_skeleton]; unfold cc0__layer_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  subst hf1 hf2 hf3 hf4 hf5
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (coverO _)]
    unfold outO scr
    rw [View.readCov_eq_canon_ld _ _ rLo (coverS _), View.readCov_eq_canon_ld _ _ rHi (coverS _)]
    rfl
  iexists _; isplitr
  swap; · iexact HS
  ipureintro
  sl_unfold_words
  exact View.read_writes_eq_canon _ _ _ (coverS _)

set_option maxHeartbeats 1000000 in
/-- At every later grid point: the scratch holds `xs` and is only read; the output block is computed from its two halves. -/
theorem run_rest (c : Dev nD) (E : Set ℕ) (i : grid0.Coords) (hc : ¬ cond i)
    (arg1 : Memref sig .tc .vmem S256x4096 .f32) (harg1 : arg1.IsWhole) (arg2 : Memref sig .tc .vmem S256x4096 .f32) (harg2 : arg2.IsWhole)
    (arg3 : Memref sig .tc .vmem S8192x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S256x64 .f32) (harg6 : arg6.IsWhole)
    (arg7 : Memref sig .tc .vmem S8192x64 .bf16) (harg7 : arg7.IsWhole)
    (x1 x2 : Vec F S256x4096 .f32) (x3 : Vec F S8192x128 .f32) (x4 : Vec F S128x64 .f32) (x5 : Vec F S1x64 .f32) (xs : Vec F S8192x64 .bf16)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ owns (c : Thread nD τ) arg7 fullShare xs
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
            ∗ owns (c : Thread nD τ) arg6 fullShare (outO x1 x2 x5 xs) ∗ owns (c : Thread nD τ) arg7 fullShare xs) -∗ K ⟨⟩))
      ⊢ wp frame (wpE (defs₀ (F := F)) Variants.none c none) E (cc0__layer_body i arg1 harg1 arg2 harg2 arg3 harg3 arg4 harg4 arg5 harg5 arg6 harg6 arg7 harg7) K := by
  simp only [cc0__layer_body_eq_skeleton]; unfold cc0__layer_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf1 hf2 hf3 hf4 hf5 hfs
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists fs; isplitr; · ipureintro; rfl
  iexact HS

/-! ## The proof data, at the buffer contents `V` the region is entered from -/

section Region

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the two column-half
    windows are fetched at every point, the three whole-array windows at the first only and their index never moves. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The first grid point. -/
def t0 : Fin cfg0.N := ⟨0, lt_of_lt_of_eq (by decide : 0 < 32) N_0.symm⟩

/-- The kernel's scratch as a whole memref. -/
abbrev scM : Memref sig .tc .vmem S8192x64 .bf16 := Memref.whole cc0_scratch0

/-- What the scratch holds after any point: the projection of the source window's block by the weight window's. -/
def scrAt (c : Dev nD) : Vec F S8192x64 .bf16 := scr (iblk V c 2 t0) (iblk V c 3 t0)

/-- What the body leaves in the output window's buffer at point `t`. -/
def outAt (c : Dev nD) (t : Fin cfg0.N) : Vec F S256x64 .f32 :=
  outO (iblk V c 0 t) (iblk V c 1 t) (iblk V c 4 t) (scrAt V c)

/-- Every other scoped buffer that is no staging buffer of this call (the other call's staging buffers and scratch), each at
    some contents: they ride along untouched. -/
def rest10 (c : Dev nD) : sProp 𝕄 :=
  Pipeline.scopedRestBut (Ix := Unit) (Name := ℕ) (U := UR sig nD τ) (Lvl := ℕ) (Val := Elt F) spec0 c [cc0_scratch0]

/-- The class invariant with the kernel's scratch owned as a memref at some contents and the other call's buffers beside it. -/
theorem PhiA_eq (c : Dev nD) : (Pipeline.ΦA spec0 c : sProp 𝕄) = iprop(((∃ d, owns (c : Thread nD τ) scM fullShare d) ∗ rest10 c) ∗ ∃ r, prngReg c r) := by
  unfold Pipeline.ΦA rest10
  rw [Pipeline.scopedRest_split_of_list spec0 c [cc0_scratch0] (by decide) (by decide)]
  simp only [Idealize.SL.BI.bigSepL_singleton, scM, owns_whole]
  rfl
theorem PhiA_in (c : Dev nD) : (Pipeline.ΦA spec0 c : sProp 𝕄) ⊢ iprop(((∃ d, owns (c : Thread nD τ) scM fullShare d) ∗ rest10 c) ∗ ∃ r, prngReg c r) := Entails.of_eq (PhiA_eq c)
theorem PhiA_out (c : Dev nD) : iprop(((∃ d, owns (c : Thread nD τ) scM fullShare d) ∗ rest10 c) ∗ ∃ r, prngReg c r) ⊢ (Pipeline.ΦA spec0 c : sProp 𝕄) := Entails.of_eq (PhiA_eq c).symm

/-- The invariant before position `n`: before the first point the class's (every scoped buffer that is no staging buffer of
    this call at anything, the generator register at some state); afterwards the same with the scratch at the projection. -/
def PhiS (c : Dev nD) : ℕ → sProp 𝕄
  | 0 => Pipeline.ΦA spec0 c
  | _ + 1 => iprop((owns (c : Thread nD τ) scM fullShare (scrAt V c) ∗ rest10 c) ∗ ∃ r, prngReg c r)

theorem PhiS_zero (c : Dev nD) : PhiS V c 0 = Pipeline.ΦA spec0 c := rfl
theorem PhiS_pos (c : Dev nD) (n : ℕ) (hn : n ≠ 0) : PhiS V c n = iprop((owns (c : Thread nD τ) scM fullShare (scrAt V c) ∗ rest10 c) ∗ ∃ r, prngReg c r) := by
  cases n with
  | zero => exact absurd rfl hn
  | succ n => rfl

/-- The proof data of this pipeline on core `c`: the arrays as the region finds them; after the body each input's buffer at
    its block and the output's at `outAt`; the two windows on the dense matrix hold its array at the two halves of the full
    share, every other window's at the full share; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = outAt V c t := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 2000000 in
/-- The body at any point: the inputs' buffers hold their blocks; at the first point the invariant hands the scratch over at
    anything and takes it back at the projection, at a later point it hands it over at the projection and takes it back
    unchanged; the other call's buffers, the generator register and the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl,
    show (dat V c).Φ t.succ = PhiS V c (t.val + 1) from rfl,
    show (dat V c).Φ t.castSucc = PhiS V c t.val from rfl,
    after_0, after_1, after_2, after_3, after_4, after_5, PhiS_pos V c (t.val + 1) (Nat.succ_ne_zero _)]
  by_cases hz : t.val = 0
  · obtain rfl : t = t0 := Fin.ext hz
    rw [show PhiS V c (t0 : Fin cfg0.N).val = Pipeline.ΦA spec0 c from rfl]
    iintro ⟨HΦ, Ho, ⟨%d0, H0⟩, ⟨%d1, H1⟩, ⟨%d2, H2⟩, ⟨%d3, H3⟩, ⟨%d4, H4⟩, ⟨%d5, H5⟩⟩
    ihave HΦ' := (PhiA_in c) $$ HΦ
    icases HΦ' with ⟨⟨HS, Hr⟩, Hg⟩
    iapply (run_first c Set.univ (grid0.coords t0) ((hcond t0).mpr rfl) _ _ _ _ _ _ _ _ _ _ _ _ _ _
      (iblk V c 0 t0) (iblk V c 1 t0) (iblk V c 2 t0) (iblk V c 3 t0) (iblk V c 4 t0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c t.val hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (run_rest c Set.univ (grid0.coords t) (fun h => hz ((hcond t).mp h)) _ _ _ _ _ _ _ _ _ _ _ _ _ _
      (iblk V c 0 t) (iblk V c 1 t) (iblk V c 2 t) (iblk V c 3 t) (iblk V c 4 t) (scrAt V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := Entails.of_eq rfl

/-- After the last point the invariant gives the class's back: the scratch's contents are forgotten. -/
theorem hout (c : Dev nD) : (dat V c).Φ (Fin.last cfg0.N) ⊢ Pipeline.ΦA spec0 c := by
  rw [show (dat V c).Φ (Fin.last cfg0.N) = PhiS V c cfg0.N from rfl,
    PhiS_pos V c cfg0.N (by rw [show cfg0.N = 32 from N_0]; decide)]
  iintro ⟨⟨HS, Hr⟩, Hg⟩
  iapply (PhiA_out c)
  isplitl [HS Hr]
  · isplitl [HS]; · iexists _; iexact HS
    iexact Hr
  iexact Hg

/-! ## The region's arrays among the core's unscoped buffers

The dense matrix reaches the kernel through two windows: its buffer's full share is dealt to them as its two halves at the
region's entry and put together again at its exit; every other array belongs to one window, at the full share. -/

/-- The distinct buffers behind the windows' arrays, listed. -/
theorem arrBufs_eq (c : Dev nD) (W : (b : Ref sig .tc) → Buf (Elt F) ((c : Thread nD τ).loc b)) :
    (Pipeline.arrBufs spec0 c W : sProp 𝕄)
      = iprop((((c : Thread nD τ).loc main_arg2) ↦{fullShare} W main_arg2) ∗ (((c : Thread nD τ).loc main_arg0) ↦{fullShare} W main_arg0) ∗ (((c : Thread nD τ).loc main_arg3) ↦{fullShare} W main_arg3) ∗ (((c : Thread nD τ).loc main_v0) ↦{fullShare} W main_v0) ∗ (((c : Thread nD τ).loc main_v2) ↦{fullShare} W main_v2)) := by
  unfold Pipeline.arrBufs
  exact bigSep_eq_bigSepL_of_eq [main_arg2, main_arg0, main_arg3, main_v0, main_v2] (by decide) (by decide) _

/-- The pipeline's arrays after the write-backs below `n`, window by window: the dense matrix's buffer twice, at the two
    halves of the full share. -/
theorem arrays_chain (c : Dev nD) (n : ℕ) :
    ((dat V c).arrays ((dat V c).arrAt · n) : sProp 𝕄)
      = iprop((((c : Thread nD τ).loc main_arg2) ↦{fullShare.left} (dat V c).arrAt 0 n) ∗ (((c : Thread nD τ).loc main_arg2) ↦{fullShare.right} (dat V c).arrAt 1 n)
          ∗ (((c : Thread nD τ).loc main_arg0) ↦{fullShare} (dat V c).arrAt 2 n) ∗ (((c : Thread nD τ).loc main_arg3) ↦{fullShare} (dat V c).arrAt 3 n)
          ∗ (((c : Thread nD τ).loc main_v0) ↦{fullShare} (dat V c).arrAt 4 n) ∗ (((c : Thread nD τ).loc main_v2) ↦{fullShare} (dat V c).arrAt 5 n)) := by
  unfold Dat.arrays; rw [bigSep_W0]; simp only [View.set_whole]
  rfl

/-- An input window's array is never written: it holds the entry contents throughout. -/
theorem arrAt_0 (c : Dev nD) (n : ℕ) : (dat V c).arrAt 0 n = V c main_arg2 := ((dat V c).arrAt_in 0 rfl n).trans (A_eq V c 0)
theorem arrAt_1 (c : Dev nD) (n : ℕ) : (dat V c).arrAt 1 n = V c main_arg2 := ((dat V c).arrAt_in 1 rfl n).trans (A_eq V c 1)
theorem arrAt_2 (c : Dev nD) (n : ℕ) : (dat V c).arrAt 2 n = V c main_arg0 := ((dat V c).arrAt_in 2 rfl n).trans (A_eq V c 2)
theorem arrAt_3 (c : Dev nD) (n : ℕ) : (dat V c).arrAt 3 n = V c main_arg3 := ((dat V c).arrAt_in 3 rfl n).trans (A_eq V c 3)
theorem arrAt_4 (c : Dev nD) (n : ℕ) : (dat V c).arrAt 4 n = V c main_v0 := ((dat V c).arrAt_in 4 rfl n).trans (A_eq V c 4)

/-- ENTRY: the buffers behind the arrays, whole at the entry contents, are the pipeline's arrays at entry. -/
theorem arrays_in (c : Dev nD) : (Pipeline.arrBufs spec0 c (V c) : sProp 𝕄) ⊢ (dat V c).arrays ((dat V c).arrAt · 0) := by
  rw [arrBufs_eq, arrays_chain, arrAt_0 V c 0, arrAt_1 V c 0, arrAt_2 V c 0, arrAt_3 V c 0, arrAt_4 V c 0,
    show (dat V c).arrAt 5 0 = V c main_v2 from A_eq V c 5]
  iintro ⟨Hm, Hx, Hw, Hb, Ho⟩
  ihave Hm' := (pointsTo_share (PosShare.mem_left_op_right fullShare)).1 $$ Hm
  icases Hm' with ⟨Hl, Hr⟩
  isplitl [Hl]; · iexact Hl
  isplitl [Hr]; · iexact Hr
  isplitl [Hx]; · iexact Hx
  isplitl [Hw]; · iexact Hw
  isplitl [Hb]; · iexact Hb
  iexact Ho

/-- EXIT: the pipeline's arrays after the write-backs below `n` are the buffers behind them, whole, at any contents `W'` that
    has the output array at what those write-backs left and every other buffer as entered. -/
theorem arrays_out (c : Dev nD) (n : ℕ) (W' : (b : Ref sig .tc) → Buf (Elt F) ((c : Thread nD τ).loc b))
    (hW' : ∀ b, b ≠ main_v2 → W' b = V c b) (hv : W' main_v2 = (dat V c).arrAt 5 n) :
    (dat V c).arrays ((dat V c).arrAt · n) ⊢ (Pipeline.arrBufs spec0 c W' : sProp 𝕄) := by
  rw [arrBufs_eq, arrays_chain, arrAt_0 V c n, arrAt_1 V c n, arrAt_2 V c n, arrAt_3 V c n, arrAt_4 V c n,
    hW' main_arg2 (by decide), hW' main_arg0 (by decide), hW' main_arg3 (by decide), hW' main_v0 (by decide), hv]
  iintro ⟨Hl, Hr, Hx, Hw, Hb, Ho⟩
  isplitl [Hl Hr]
  · iapply (pointsTo_share (PosShare.mem_left_op_right fullShare)).2
    isplitl [Hl]; · iexact Hl
    iexact Hr
  isplitl [Hx]; · iexact Hx
  isplitl [Hw]; · iexact Hw
  isplitl [Hb]; · iexact Hb
  iexact Ho

/-- ENTRY, with the rest: the core's unscoped buffers at the entry contents are the pipeline's arrays and the buffers
    that are no window's array. -/
theorem bufs_in (c : Dev nD) :
    (unscopedBufs c (V c) : sProp 𝕄) ⊢ iprop((dat V c).arrays ((dat V c).arrAt · 0) ∗ Pipeline.unscopedRest spec0 c (V c)) := by
  rw [Pipeline.PerCore.unscopedBufs_split₀ (fun _ : Dev nD => cfgs) (0 : Fin 2) c winFacts₀0.arr_unscoped (V c)]
  exact sep_mono (arrays_in V c) .rfl

/-- EXIT, with the rest. -/
theorem bufs_out (c : Dev nD) (n : ℕ) (W' : (b : Ref sig .tc) → Buf (Elt F) ((c : Thread nD τ).loc b))
    (hW' : ∀ b, b ≠ main_v2 → W' b = V c b) (hv : W' main_v2 = (dat V c).arrAt 5 n) :
    iprop((dat V c).arrays ((dat V c).arrAt · n) ∗ Pipeline.unscopedRest spec0 c (V c)) ⊢ (unscopedBufs c W' : sProp 𝕄) := by
  rw [Pipeline.PerCore.unscopedBufs_split₀ (fun _ : Dev nD => cfgs) (0 : Fin 2) c winFacts₀0.arr_unscoped W']
  refine sep_mono (arrays_out V c n W' hW' hv) (Entails.of_eq ?_)
  unfold Pipeline.unscopedRest
  exact bigSep_congr fun b hb => by
    rw [hW' b (fun h => (Finset.mem_sdiff.mp hb).2 (h ▸ Finset.mem_image.mpr ⟨5, Finset.mem_univ _, rfl⟩))]

end Region

end Cert.Kernel.R0

end
-- ==== Proof.BitsR1.lean ====
import proofs.«181717_g4698694221856_cont_8to1c4_439_7_alg».proof.Proof.Gen.Kernel.Launch
import proofs.«181717_g4698694221856_cont_8to1c4_439_7_alg».proof.Proof.Gen.Kernel.Skeleton
import proofs.«181717_g4698694221856_cont_8to1c4_439_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSep_eq_bigSepL_of_eq bigSep_congr)

variable {F : FTy → Type} [FloatOps F]

local notation "𝕄" => MT nD τ sig Unit (Elt F) ℕ (UR sig nD τ) ℕ

/-! # One graph-convolution layer as a pipelined kernel: the body's runs, the proof data, the body obligation

The body runs at 32 grid points. At the first it multiplies the whole source matrix by the weight matrix and keeps the
product in a scratch buffer; at every point it multiplies the point's two column halves of a 256-row block of the dense
matrix by the two row halves of that scratch, adds the two products and the bias row, and stores the 256-row block of the
result. So after any point the scratch holds one fixed matrix, the projection, and what the body leaves in the output
buffer at a point is one fixed function of the point's blocks and of that matrix. -/

/-- The body's branch condition from the grid coordinate: it is the first grid point. -/
abbrev cond (i : grid1.Coords) : Prop := (Scalar.cmpi .ne (Scalar.extui (Scalar.cmpi .eq (BitVec.ofNat 32 (i 0).val) 0#32)) 0#32) = 1#1
theorem hcond : ∀ t : Fin cfg1.N, cond (grid1.coords t) ↔ t.val = 0 :=
  (by decide +kernel : ∀ t : Fin grid1.N, cond (grid1.coords t) ↔ t.val = 0)

/-! ## The rectangles the body loads and stores through -/

abbrev rA : Rect S256x4096 := Rect.unit (s := S256x4096) ![0, 0] S256x4096.size inb_S256x4096_S256x4096_0_0
abbrev rX : Rect S8192x64 := Rect.unit (s := S8192x64) ![0, 0] S8192x64.size inb_S8192x64_S8192x64_0_0
abbrev rW : Rect S64x32 := Rect.unit (s := S64x32) ![0, 0] S64x32.size inb_S64x32_S64x32_0_0
abbrev rB : Rect S1x32 := Rect.unit (s := S1x32) ![0, 0] S1x32.size inb_S1x32_S1x32_0_0
abbrev rO : Rect S256x32 := Rect.unit (s := S256x32) ![0, 0] S256x32.size inb_S256x32_S256x32_0_0
abbrev rS : Rect S8192x32 := Rect.unit (s := S8192x32) ![0, 0] S8192x32.size inb_S8192x32_S8192x32_0_0
abbrev rLo : Rect S8192x32 := Rect.unit (s := S8192x32) ![0, 0] S4096x32.size inb_S8192x32_S4096x32_0_0
abbrev rHi : Rect S8192x32 := Rect.unit (s := S8192x32) ![4096, 0] S4096x32.size inb_S8192x32_S4096x32_4096_0

/-- What the body leaves in the output buffer: its one store's payload, from the two column-half blocks `x1`, `x2`, the bias
    row `x5` and the scratch's contents `xs` read through its two row halves. -/
def outO (x1 x2 : Vec F S256x4096 .f32) (x5 : Vec F S1x32 .f32) (xs : Vec F S8192x32 .bf16) : Vec F S256x32 .f32 :=
  View.canon [⟨rO, k1_pay2 (View.ld x1 rA) (View.ld xs rLo) (View.ld x2 rA) (View.ld xs rHi) (View.ld x5 rB)⟩]

/-- What the first point leaves in the scratch: the projection of the source `x3` by the weights `x4`. -/
def scr (x3 : Vec F S8192x64 .f32) (x4 : Vec F S64x32 .f32) : Vec F S8192x32 .bf16 :=
  View.canon [⟨rS, k1_pay1 (View.ld x3 rX) (View.ld x4 rW)⟩]

/-- The one store into the output buffer covers it. -/
theorem coverO (p0 : Vec F S256x32 .f32) (y : S256x32.Idx) :
    ∃ pc ∈ ([⟨rO, p0⟩] : List (View.Piece (Elt F) S256x32 .f32)), y ∈ pc.1.set :=
  View.cover_of_tiled [⟨rO, p0⟩] S256x32.size (by rfl) y
/-- The one store into the scratch covers it. -/
theorem coverS (p0 : Vec F S8192x32 .bf16) (y : S8192x32.Idx) :
    ∃ pc ∈ ([⟨rS, p0⟩] : List (View.Piece (Elt F) S8192x32 .bf16)), y ∈ pc.1.set :=
  View.cover_of_tiled [⟨rS, p0⟩] S8192x32.size (by rfl) y

/-! ## The body's two runs -/

set_option maxHeartbeats 1000000 in
/-- At the first grid point: the scratch is at anything; the body fills it with the projection, reads its two halves back and
    stores the output block computed from them. -/
theorem run_first (c : Dev nD) (E : Set ℕ) (i : grid1.Coords) (hc : cond i)
    (arg1 : Memref sig .tc .vmem S256x4096 .f32) (harg1 : arg1.IsWhole) (arg2 : Memref sig .tc .vmem S256x4096 .f32) (harg2 : arg2.IsWhole)
    (arg3 : Memref sig .tc .vmem S8192x64 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S256x32 .f32) (harg6 : arg6.IsWhole)
    (arg7 : Memref sig .tc .vmem S8192x32 .bf16) (harg7 : arg7.IsWhole)
    (x1 x2 : Vec F S256x4096 .f32) (x3 : Vec F S8192x64 .f32) (x4 : Vec F S64x32 .f32) (x5 : Vec F S1x32 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (∃ d, owns (c : Thread nD τ) arg7 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
            ∗ owns (c : Thread nD τ) arg6 fullShare (outO x1 x2 x5 (scr x3 x4)) ∗ owns (c : Thread nD τ) arg7 fullShare (scr x3 x4)) -∗ K ⟨⟩))
      ⊢ wp frame (wpE (defs₀ (F := F)) Variants.none c none) E (cc1__layer_body i arg1 harg1 arg2 harg2 arg3 harg3 arg4 harg4 arg5 harg5 arg6 harg6 arg7 harg7) K := by
  simp only [cc1__layer_body_eq_skeleton]; unfold cc1__layer_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  subst hf1 hf2 hf3 hf4 hf5
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (coverO _)]
    unfold outO scr
    rw [View.readCov_eq_canon_ld _ _ rLo (coverS _), View.readCov_eq_canon_ld _ _ rHi (coverS _)]
    rfl
  iexists _; isplitr
  swap; · iexact HS
  ipureintro
  sl_unfold_words
  exact View.read_writes_eq_canon _ _ _ (coverS _)

set_option maxHeartbeats 1000000 in
/-- At every later grid point: the scratch holds `xs` and is only read; the output block is computed from its two halves. -/
theorem run_rest (c : Dev nD) (E : Set ℕ) (i : grid1.Coords) (hc : ¬ cond i)
    (arg1 : Memref sig .tc .vmem S256x4096 .f32) (harg1 : arg1.IsWhole) (arg2 : Memref sig .tc .vmem S256x4096 .f32) (harg2 : arg2.IsWhole)
    (arg3 : Memref sig .tc .vmem S8192x64 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S256x32 .f32) (harg6 : arg6.IsWhole)
    (arg7 : Memref sig .tc .vmem S8192x32 .bf16) (harg7 : arg7.IsWhole)
    (x1 x2 : Vec F S256x4096 .f32) (x3 : Vec F S8192x64 .f32) (x4 : Vec F S64x32 .f32) (x5 : Vec F S1x32 .f32) (xs : Vec F S8192x32 .bf16)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ owns (c : Thread nD τ) arg7 fullShare xs
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
            ∗ owns (c : Thread nD τ) arg6 fullShare (outO x1 x2 x5 xs) ∗ owns (c : Thread nD τ) arg7 fullShare xs) -∗ K ⟨⟩))
      ⊢ wp frame (wpE (defs₀ (F := F)) Variants.none c none) E (cc1__layer_body i arg1 harg1 arg2 harg2 arg3 harg3 arg4 harg4 arg5 harg5 arg6 harg6 arg7 harg7) K := by
  simp only [cc1__layer_body_eq_skeleton]; unfold cc1__layer_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf1 hf2 hf3 hf4 hf5 hfs
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists fs; isplitr; · ipureintro; rfl
  iexact HS

/-! ## The proof data, at the buffer contents `V` the region is entered from -/

section Region

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the two column-half
    windows are fetched at every point, the three whole-array windows at the first only and their index never moves. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The first grid point. -/
def t0 : Fin cfg1.N := ⟨0, lt_of_lt_of_eq (by decide : 0 < 32) N_1.symm⟩

/-- The kernel's scratch as a whole memref. -/
abbrev scM : Memref sig .tc .vmem S8192x32 .bf16 := Memref.whole cc1_scratch0

/-- What the scratch holds after any point: the projection of the source window's block by the weight window's. -/
def scrAt (c : Dev nD) : Vec F S8192x32 .bf16 := scr (iblk V c 2 t0) (iblk V c 3 t0)

/-- What the body leaves in the output window's buffer at point `t`. -/
def outAt (c : Dev nD) (t : Fin cfg1.N) : Vec F S256x32 .f32 :=
  outO (iblk V c 0 t) (iblk V c 1 t) (iblk V c 4 t) (scrAt V c)

/-- Every other scoped buffer that is no staging buffer of this call (the other call's staging buffers and scratch), each at
    some contents: they ride along untouched. -/
def rest10 (c : Dev nD) : sProp 𝕄 :=
  Pipeline.scopedRestBut (Ix := Unit) (Name := ℕ) (U := UR sig nD τ) (Lvl := ℕ) (Val := Elt F) spec1 c [cc1_scratch0]

/-- The class invariant with the kernel's scratch owned as a memref at some contents and the other call's buffers beside it. -/
theorem PhiA_eq (c : Dev nD) : (Pipeline.ΦA spec1 c : sProp 𝕄) = iprop(((∃ d, owns (c : Thread nD τ) scM fullShare d) ∗ rest10 c) ∗ ∃ r, prngReg c r) := by
  unfold Pipeline.ΦA rest10
  rw [Pipeline.scopedRest_split_of_list spec1 c [cc1_scratch0] (by decide) (by decide)]
  simp only [Idealize.SL.BI.bigSepL_singleton, scM, owns_whole]
  rfl
theorem PhiA_in (c : Dev nD) : (Pipeline.ΦA spec1 c : sProp 𝕄) ⊢ iprop(((∃ d, owns (c : Thread nD τ) scM fullShare d) ∗ rest10 c) ∗ ∃ r, prngReg c r) := Entails.of_eq (PhiA_eq c)
theorem PhiA_out (c : Dev nD) : iprop(((∃ d, owns (c : Thread nD τ) scM fullShare d) ∗ rest10 c) ∗ ∃ r, prngReg c r) ⊢ (Pipeline.ΦA spec1 c : sProp 𝕄) := Entails.of_eq (PhiA_eq c).symm

/-- The invariant before position `n`: before the first point the class's (every scoped buffer that is no staging buffer of
    this call at anything, the generator register at some state); afterwards the same with the scratch at the projection. -/
def PhiS (c : Dev nD) : ℕ → sProp 𝕄
  | 0 => Pipeline.ΦA spec1 c
  | _ + 1 => iprop((owns (c : Thread nD τ) scM fullShare (scrAt V c) ∗ rest10 c) ∗ ∃ r, prngReg c r)

theorem PhiS_zero (c : Dev nD) : PhiS V c 0 = Pipeline.ΦA spec1 c := rfl
theorem PhiS_pos (c : Dev nD) (n : ℕ) (hn : n ≠ 0) : PhiS V c n = iprop((owns (c : Thread nD τ) scM fullShare (scrAt V c) ∗ rest10 c) ∗ ∃ r, prngReg c r) := by
  cases n with
  | zero => exact absurd rfl hn
  | succ n => rfl

/-- The proof data of this pipeline on core `c`: the arrays as the region finds them; after the body each input's buffer at
    its block and the output's at `outAt`; the two windows on the dense matrix hold its array at the two halves of the full
    share, every other window's at the full share; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outAt V c t := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

set_option maxHeartbeats 2000000 in
/-- The body at any point: the inputs' buffers hold their blocks; at the first point the invariant hands the scratch over at
    anything and takes it back at the projection, at a later point it hands it over at the projection and takes it back
    unchanged; the other call's buffers, the generator register and the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl,
    show (dat V c).Φ t.succ = PhiS V c (t.val + 1) from rfl,
    show (dat V c).Φ t.castSucc = PhiS V c t.val from rfl,
    after_0, after_1, after_2, after_3, after_4, after_5, PhiS_pos V c (t.val + 1) (Nat.succ_ne_zero _)]
  by_cases hz : t.val = 0
  · obtain rfl : t = t0 := Fin.ext hz
    rw [show PhiS V c (t0 : Fin cfg1.N).val = Pipeline.ΦA spec1 c from rfl]
    iintro ⟨HΦ, Ho, ⟨%d0, H0⟩, ⟨%d1, H1⟩, ⟨%d2, H2⟩, ⟨%d3, H3⟩, ⟨%d4, H4⟩, ⟨%d5, H5⟩⟩
    ihave HΦ' := (PhiA_in c) $$ HΦ
    icases HΦ' with ⟨⟨HS, Hr⟩, Hg⟩
    iapply (run_first c Set.univ (grid1.coords t0) ((hcond t0).mpr rfl) _ _ _ _ _ _ _ _ _ _ _ _ _ _
      (iblk V c 0 t0) (iblk V c 1 t0) (iblk V c 2 t0) (iblk V c 3 t0) (iblk V c 4 t0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c t.val hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (run_rest c Set.univ (grid1.coords t) (fun h => hz ((hcond t).mp h)) _ _ _ _ _ _ _ _ _ _ _ _ _ _
      (iblk V c 0 t) (iblk V c 1 t) (iblk V c 2 t) (iblk V c 3 t) (iblk V c 4 t) (scrAt V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := Entails.of_eq rfl

/-- After the last point the invariant gives the class's back: the scratch's contents are forgotten. -/
theorem hout (c : Dev nD) : (dat V c).Φ (Fin.last cfg1.N) ⊢ Pipeline.ΦA spec1 c := by
  rw [show (dat V c).Φ (Fin.last cfg1.N) = PhiS V c cfg1.N from rfl,
    PhiS_pos V c cfg1.N (by rw [show cfg1.N = 32 from N_1]; decide)]
  iintro ⟨⟨HS, Hr⟩, Hg⟩
  iapply (PhiA_out c)
  isplitl [HS Hr]
  · isplitl [HS]; · iexists _; iexact HS
    iexact Hr
  iexact Hg

/-! ## The region's arrays among the core's unscoped buffers

The dense matrix reaches the kernel through two windows: its buffer's full share is dealt to them as its two halves at the
region's entry and put together again at its exit; every other array belongs to one window, at the full share. -/

/-- The distinct buffers behind the windows' arrays, listed. -/
theorem arrBufs_eq (c : Dev nD) (W : (b : Ref sig .tc) → Buf (Elt F) ((c : Thread nD τ).loc b)) :
    (Pipeline.arrBufs spec1 c W : sProp 𝕄)
      = iprop((((c : Thread nD τ).loc main_arg1) ↦{fullShare} W main_arg1) ∗ (((c : Thread nD τ).loc main_v2) ↦{fullShare} W main_v2) ∗ (((c : Thread nD τ).loc main_arg5) ↦{fullShare} W main_arg5) ∗ (((c : Thread nD τ).loc main_v1) ↦{fullShare} W main_v1) ∗ (((c : Thread nD τ).loc main_v3) ↦{fullShare} W main_v3)) := by
  unfold Pipeline.arrBufs
  exact bigSep_eq_bigSepL_of_eq [main_arg1, main_v2, main_arg5, main_v1, main_v3] (by decide) (by decide) _

/-- The pipeline's arrays after the write-backs below `n`, window by window: the dense matrix's buffer twice, at the two
    halves of the full share. -/
theorem arrays_chain (c : Dev nD) (n : ℕ) :
    ((dat V c).arrays ((dat V c).arrAt · n) : sProp 𝕄)
      = iprop((((c : Thread nD τ).loc main_arg1) ↦{fullShare.left} (dat V c).arrAt 0 n) ∗ (((c : Thread nD τ).loc main_arg1) ↦{fullShare.right} (dat V c).arrAt 1 n)
          ∗ (((c : Thread nD τ).loc main_v2) ↦{fullShare} (dat V c).arrAt 2 n) ∗ (((c : Thread nD τ).loc main_arg5) ↦{fullShare} (dat V c).arrAt 3 n)
          ∗ (((c : Thread nD τ).loc main_v1) ↦{fullShare} (dat V c).arrAt 4 n) ∗ (((c : Thread nD τ).loc main_v3) ↦{fullShare} (dat V c).arrAt 5 n)) := by
  unfold Dat.arrays; rw [bigSep_W1]; simp only [View.set_whole]
  rfl

/-- An input window's array is never written: it holds the entry contents throughout. -/
theorem arrAt_0 (c : Dev nD) (n : ℕ) : (dat V c).arrAt 0 n = V c main_arg1 := ((dat V c).arrAt_in 0 rfl n).trans (A_eq V c 0)
theorem arrAt_1 (c : Dev nD) (n : ℕ) : (dat V c).arrAt 1 n = V c main_arg1 := ((dat V c).arrAt_in 1 rfl n).trans (A_eq V c 1)
theorem arrAt_2 (c : Dev nD) (n : ℕ) : (dat V c).arrAt 2 n = V c main_v2 := ((dat V c).arrAt_in 2 rfl n).trans (A_eq V c 2)
theorem arrAt_3 (c : Dev nD) (n : ℕ) : (dat V c).arrAt 3 n = V c main_arg5 := ((dat V c).arrAt_in 3 rfl n).trans (A_eq V c 3)
theorem arrAt_4 (c : Dev nD) (n : ℕ) : (dat V c).arrAt 4 n = V c main_v1 := ((dat V c).arrAt_in 4 rfl n).trans (A_eq V c 4)

/-- ENTRY: the buffers behind the arrays, whole at the entry contents, are the pipeline's arrays at entry. -/
theorem arrays_in (c : Dev nD) : (Pipeline.arrBufs spec1 c (V c) : sProp 𝕄) ⊢ (dat V c).arrays ((dat V c).arrAt · 0) := by
  rw [arrBufs_eq, arrays_chain, arrAt_0 V c 0, arrAt_1 V c 0, arrAt_2 V c 0, arrAt_3 V c 0, arrAt_4 V c 0,
    show (dat V c).arrAt 5 0 = V c main_v3 from A_eq V c 5]
  iintro ⟨Hm, Hx, Hw, Hb, Ho⟩
  ihave Hm' := (pointsTo_share (PosShare.mem_left_op_right fullShare)).1 $$ Hm
  icases Hm' with ⟨Hl, Hr⟩
  isplitl [Hl]; · iexact Hl
  isplitl [Hr]; · iexact Hr
  isplitl [Hx]; · iexact Hx
  isplitl [Hw]; · iexact Hw
  isplitl [Hb]; · iexact Hb
  iexact Ho

/-- EXIT: the pipeline's arrays after the write-backs below `n` are the buffers behind them, whole, at any contents `W'` that
    has the output array at what those write-backs left and every other buffer as entered. -/
theorem arrays_out (c : Dev nD) (n : ℕ) (W' : (b : Ref sig .tc) → Buf (Elt F) ((c : Thread nD τ).loc b))
    (hW' : ∀ b, b ≠ main_v3 → W' b = V c b) (hv : W' main_v3 = (dat V c).arrAt 5 n) :
    (dat V c).arrays ((dat V c).arrAt · n) ⊢ (Pipeline.arrBufs spec1 c W' : sProp 𝕄) := by
  rw [arrBufs_eq, arrays_chain, arrAt_0 V c n, arrAt_1 V c n, arrAt_2 V c n, arrAt_3 V c n, arrAt_4 V c n,
    hW' main_arg1 (by decide), hW' main_v2 (by decide), hW' main_arg5 (by decide), hW' main_v1 (by decide), hv]
  iintro ⟨Hl, Hr, Hx, Hw, Hb, Ho⟩
  isplitl [Hl Hr]
  · iapply (pointsTo_share (PosShare.mem_left_op_right fullShare)).2
    isplitl [Hl]; · iexact Hl
    iexact Hr
  isplitl [Hx]; · iexact Hx
  isplitl [Hw]; · iexact Hw
  isplitl [Hb]; · iexact Hb
  iexact Ho

/-- ENTRY, with the rest: the core's unscoped buffers at the entry contents are the pipeline's arrays and the buffers
    that are no window's array. -/
theorem bufs_in (c : Dev nD) :
    (unscopedBufs c (V c) : sProp 𝕄) ⊢ iprop((dat V c).arrays ((dat V c).arrAt · 0) ∗ Pipeline.unscopedRest spec1 c (V c)) := by
  rw [Pipeline.PerCore.unscopedBufs_split₀ (fun _ : Dev nD => cfgs) (1 : Fin 2) c winFacts₀1.arr_unscoped (V c)]
  exact sep_mono (arrays_in V c) .rfl

/-- EXIT, with the rest. -/
theorem bufs_out (c : Dev nD) (n : ℕ) (W' : (b : Ref sig .tc) → Buf (Elt F) ((c : Thread nD τ).loc b))
    (hW' : ∀ b, b ≠ main_v3 → W' b = V c b) (hv : W' main_v3 = (dat V c).arrAt 5 n) :
    iprop((dat V c).arrays ((dat V c).arrAt · n) ∗ Pipeline.unscopedRest spec1 c (V c)) ⊢ (unscopedBufs c W' : sProp 𝕄) := by
  rw [Pipeline.PerCore.unscopedBufs_split₀ (fun _ : Dev nD => cfgs) (1 : Fin 2) c winFacts₀1.arr_unscoped W']
  refine sep_mono (arrays_out V c n W' hW' hv) (Entails.of_eq ?_)
  unfold Pipeline.unscopedRest
  exact bigSep_congr fun b hb => by
    rw [hW' b (fun h => (Finset.mem_sdiff.mp hb).2 (h ▸ Finset.mem_image.mpr ⟨5, Finset.mem_univ _, rfl⟩))]

end Region

end Cert.Kernel.R1

end
-- ==== Proof.BitsRun.lean ====
import proofs.«181717_g4698694221856_cont_8to1c4_439_7_alg».proof.Proof.BitsR0
import proofs.«181717_g4698694221856_cont_8to1c4_439_7_alg».proof.Proof.BitsR1
import proofs.«181717_g4698694221856_cont_8to1c4_439_7_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The two layers as segments of the program: what each leaves, the proof data family, the regions' records

The program reshapes the two bias vectors, runs the first layer's kernel (which writes the hidden layer's buffer) and
then the second layer's (which reads it and writes the result). Between two items the core holds every unscoped buffer
at named contents: the launch contents, then the reshapes' results, then the hidden layer at what the first kernel's
write-backs leave, then the result at what the second's leave. -/

/-- Core `c`'s buffers after the two reshapes, read at the TensorCore's references: what the first kernel is entered from. -/
abbrev U1 (c : Dev nD) (b : Ref sig .tc) : Buf (Elt F) ((c : Thread nD τ).loc b) := Gen.V1 m c b

/-- What the first kernel leaves in the hidden layer's buffer: its output array after the last write-back. -/
def X2 (c : Dev nD) : Buf (Elt F) ((c : Thread nD τ).loc main_v2) := (R0.dat (U1 m) c).arrAt 5 cfg0.N

/-- Core `c`'s buffers after the first kernel. -/
abbrev W2 (c : Dev nD) : Valuation τ sig (Elt F) := Function.update (Gen.V1 m c) main_v2 (X2 m c)
/-- The same read at the TensorCore's references: what the second kernel is entered from. -/
abbrev U2 (c : Dev nD) (b : Ref sig .tc) : Buf (Elt F) ((c : Thread nD τ).loc b) := W2 m c b

/-- What the second kernel leaves in the result's buffer. -/
def X3 (c : Dev nD) : Buf (Elt F) ((c : Thread nD τ).loc main_v3) := (R1.dat (U2 m) c).arrAt 5 cfg1.N

/-- Core `c`'s buffers after the second kernel. -/
abbrev W3 (c : Dev nD) : Valuation τ sig (Elt F) := Function.update (W2 m c) main_v3 (X3 m c)

/-- What the regions leave in the buffers they may change: the hidden layer after the first kernel, the result after the
    second; no other entry is read. -/
def outs : Gen.Outs (F := F) := fun J r c =>
  match J with
  | 2 => if h : r = main_v2 then h ▸ X2 m c else m ((c : Thread nD τ).loc r)
  | _ => if h : r = main_v3 then h ▸ X3 m c else m ((c : Thread nD τ).loc r)

theorem outs_2 (c : Dev nD) : outs m 2 main_v2 c = X2 m c := by
  show (if h : main_v2 = main_v2 then h ▸ X2 m c else m ((c : Thread nD τ).loc main_v2)) = _
  rw [dif_pos rfl]
theorem outs_3 (c : Dev nD) : outs m 3 main_v3 c = X3 m c := by
  show (if h : main_v3 = main_v3 then h ▸ X3 m c else m ((c : Thread nD τ).loc main_v3)) = _
  rw [dif_pos rfl]

theorem V2_eq (c : Dev nD) : Gen.V2 m (outs m) c = W2 m c := by
  show Function.update (Gen.V1 m c) main_v2 (outs m 2 main_v2 c) = _
  rw [outs_2]
theorem V3_eq (c : Dev nD) : Gen.V3 m (outs m) c = W3 m c := by
  show Function.update (Gen.V2 m (outs m) c) main_v3 (outs m 3 main_v3 c) = _
  rw [V2_eq, outs_3]

/-- Both pipelines' proof data, each at its region's entry contents. -/
def pdats : (p : Fin 2) → (c : Dev nD) → Dat τ (Elt F) Unit ℕ (UR sig nD τ) ℕ (cfgs p) c
  | ⟨0, _⟩ => fun c => R0.dat (U1 m) c
  | ⟨1, _⟩ => fun c => R1.dat (U2 m) c

/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)

theorem W2_of_ne (c : Dev nD) (b : Ref sig .tc) (hb : b ≠ main_v2) : U2 m c b = U1 m c b :=
  Function.update_of_ne (StableHlo.devRef_ne_of_ne hb : (Proc.devRef .tc b : DevRef τ sig) ≠ Proc.devRef .tc main_v2) _ _
theorem W2_self (c : Dev nD) : U2 m c main_v2 = (R0.dat (U1 m) c).arrAt 5 cfg0.N :=
  Function.update_self _ _ _
theorem W3_of_ne (c : Dev nD) (b : Ref sig .tc) (hb : b ≠ main_v3) : W3 m c b = U2 m c b :=
  Function.update_of_ne (StableHlo.devRef_ne_of_ne hb : (Proc.devRef .tc b : DevRef τ sig) ≠ Proc.devRef .tc main_v3) _ _
theorem W3_self (c : Dev nD) : W3 m c main_v3 = (R1.dat (U2 m) c).arrAt 5 cfg1.N :=
  Function.update_self _ _ _

set_option backward.isDefEq.respectTransparency.types false in
/-- The first layer's kernel as a segment: entered from every unscoped buffer at the reshapes' results, left with the
    hidden layer's buffer at what its write-backs leave. The dense matrix's buffer is dealt to its two windows in halves
    and put together at the exit; the generator register goes into the invariant and comes back; nothing is owed. -/
def reg0 : RegionSeg (pcfgs (F := F)) Gen.adm (pdats m) () defs₀ Variants.none L lv 0 where
  win := winFacts₀0
  block_pos := block_pos0
  stage_whole := stage_whole0
  K := PEmpty
  osem k := k.elim
  ho := Pipeline.OwnSemFacts.none _
  hbody c := (R0.body_obligation (U1 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := R0.bufs_in (U1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (R0.hout (U1 m) c).trans ?_
    unfold Pipeline.ΦA
    iintro ⟨Hr, Hp⟩
    isplitl [Hp]; · iexact Hp
    isplitr; · iempintro
    iexact Hr
  hexit c := by
    have hjoin := R0.bufs_out (U1 m) c cfg0.N (U2 m c) (W2_of_ne m c) (W2_self m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second layer's kernel as a segment: entered from the buffers as the first left them, left with the result's
    buffer at what its write-backs leave. -/
def reg1 : RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (R1.body_obligation (U2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := R1.bufs_in (U2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (R1.hout (U2 m) c).trans ?_
    unfold Pipeline.ΦA
    iintro ⟨Hr, Hp⟩
    isplitl [Hp]; · iexact Hp
    isplitr; · iempintro
    iexact Hr
  hexit c := by
    have hjoin := R1.bufs_out (U2 m) c cfg1.N (fun b => W3 m c b) (W3_of_ne m c) (W3_self m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The frame -/

/-- The launch element: the pipeline library's, at both pipelines' staging cells. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the rest state: its generator register, owing nothing. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rr c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- Every weakly fair execution of the program terminates, nothing faulting, and every final memory holds each argument
    array as launched: the conditional frame of the two regions' records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () Variants.none L lv (fun _ _ => rfl) ρ (outs m) (pdats m) 0 (fun _ => iprop(emp))
    (initOf (Pipeline.cells cfgs cellOf_inj) (Pipeline.launchToks cfgs cellOf_inj)) hu₀
    (fun _ c => Rr c) (hE0 ρ)
    (fun c => by iintro ⟨-, HO⟩; iexact HO)
    (reg0 m) (fun c => .rfl) (fun c => by rw [V2_eq]; exact .rfl)
    (reg1 m) (fun c => by rw [V2_eq]; exact .rfl) (fun c => by rw [V3_eq]; exact .rfl)

end Cert.Kernel.Run

end
-- ==== Proof.IdealR0.lean ====
import proofs.«181717_g4698694221856_cont_8to1c4_439_7_alg».proof.Proof.Gen.KernelIdeal.Launch
import proofs.«181717_g4698694221856_cont_8to1c4_439_7_alg».proof.Proof.Gen.KernelIdeal.Skeleton
import proofs.«181717_g4698694221856_cont_8to1c4_439_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSep_eq_bigSepL_of_eq bigSep_congr)

variable {F : FTy → Type} [FloatOps F]

local notation "𝕄" => MT nD τ sig Unit (Elt F) ℕ (UR sig nD τ) ℕ

/-! # One graph-convolution layer as a pipelined kernel: the body's runs, the proof data, the body obligation

The body runs at 32 grid points. At the first it multiplies the whole source matrix by the weight matrix and keeps the
product in a scratch buffer; at every point it multiplies the point's two column halves of a 256-row block of the dense
matrix by the two row halves of that scratch, adds the two products and the bias row, and stores the 256-row block of the
result. So after any point the scratch holds one fixed matrix, the projection, and what the body leaves in the output
buffer at a point is one fixed function of the point's blocks and of that matrix. -/

/-- The body's branch condition from the grid coordinate: it is the first grid point. -/
abbrev cond (i : grid0.Coords) : Prop := (Scalar.cmpi .ne (Scalar.extui (Scalar.cmpi .eq (BitVec.ofNat 32 (i 0).val) 0#32)) 0#32) = 1#1
theorem hcond : ∀ t : Fin cfg0.N, cond (grid0.coords t) ↔ t.val = 0 :=
  (by decide +kernel : ∀ t : Fin grid0.N, cond (grid0.coords t) ↔ t.val = 0)

/-! ## The rectangles the body loads and stores through -/

abbrev rA : Rect S256x4096 := Rect.unit (s := S256x4096) ![0, 0] S256x4096.size inb_S256x4096_S256x4096_0_0
abbrev rX : Rect S8192x128 := Rect.unit (s := S8192x128) ![0, 0] S8192x128.size inb_S8192x128_S8192x128_0_0
abbrev rW : Rect S128x64 := Rect.unit (s := S128x64) ![0, 0] S128x64.size inb_S128x64_S128x64_0_0
abbrev rB : Rect S1x64 := Rect.unit (s := S1x64) ![0, 0] S1x64.size inb_S1x64_S1x64_0_0
abbrev rO : Rect S256x64 := Rect.unit (s := S256x64) ![0, 0] S256x64.size inb_S256x64_S256x64_0_0
abbrev rS : Rect S8192x64 := Rect.unit (s := S8192x64) ![0, 0] S8192x64.size inb_S8192x64_S8192x64_0_0
abbrev rLo : Rect S8192x64 := Rect.unit (s := S8192x64) ![0, 0] S4096x64.size inb_S8192x64_S4096x64_0_0
abbrev rHi : Rect S8192x64 := Rect.unit (s := S8192x64) ![4096, 0] S4096x64.size inb_S8192x64_S4096x64_4096_0

/-- What the body leaves in the output buffer: its one store's payload, from the two column-half blocks `x1`, `x2`, the bias
    row `x5` and the scratch's contents `xs` read through its two row halves. -/
def outO (x1 x2 : Vec F S256x4096 .f32) (x5 : Vec F S1x64 .f32) (xs : Vec F S8192x64 .bf16) : Vec F S256x64 .f32 :=
  View.canon [⟨rO, k0_pay2 (View.ld x1 rA) (View.ld xs rLo) (View.ld x2 rA) (View.ld xs rHi) (View.ld x5 rB)⟩]

/-- What the first point leaves in the scratch: the projection of the source `x3` by the weights `x4`. -/
def scr (x3 : Vec F S8192x128 .f32) (x4 : Vec F S128x64 .f32) : Vec F S8192x64 .bf16 :=
  View.canon [⟨rS, k0_pay1 (View.ld x3 rX) (View.ld x4 rW)⟩]

/-- The one store into the output buffer covers it. -/
theorem coverO (p0 : Vec F S256x64 .f32) (y : S256x64.Idx) :
    ∃ pc ∈ ([⟨rO, p0⟩] : List (View.Piece (Elt F) S256x64 .f32)), y ∈ pc.1.set :=
  View.cover_of_tiled [⟨rO, p0⟩] S256x64.size (by rfl) y
/-- The one store into the scratch covers it. -/
theorem coverS (p0 : Vec F S8192x64 .bf16) (y : S8192x64.Idx) :
    ∃ pc ∈ ([⟨rS, p0⟩] : List (View.Piece (Elt F) S8192x64 .bf16)), y ∈ pc.1.set :=
  View.cover_of_tiled [⟨rS, p0⟩] S8192x64.size (by rfl) y

/-! ## The body's two runs -/

set_option maxHeartbeats 1000000 in
/-- At the first grid point: the scratch is at anything; the body fills it with the projection, reads its two halves back and
    stores the output block computed from them. -/
theorem run_first (c : Dev nD) (E : Set ℕ) (i : grid0.Coords) (hc : cond i)
    (arg1 : Memref sig .tc .vmem S256x4096 .f32) (harg1 : arg1.IsWhole) (arg2 : Memref sig .tc .vmem S256x4096 .f32) (harg2 : arg2.IsWhole)
    (arg3 : Memref sig .tc .vmem S8192x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S256x64 .f32) (harg6 : arg6.IsWhole)
    (arg7 : Memref sig .tc .vmem S8192x64 .bf16) (harg7 : arg7.IsWhole)
    (x1 x2 : Vec F S256x4096 .f32) (x3 : Vec F S8192x128 .f32) (x4 : Vec F S128x64 .f32) (x5 : Vec F S1x64 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (∃ d, owns (c : Thread nD τ) arg7 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
            ∗ owns (c : Thread nD τ) arg6 fullShare (outO x1 x2 x5 (scr x3 x4)) ∗ owns (c : Thread nD τ) arg7 fullShare (scr x3 x4)) -∗ K ⟨⟩))
      ⊢ wp frame (wpE (defs₀ (F := F)) Variants.none c none) E (cc0__layer_body i arg1 harg1 arg2 harg2 arg3 harg3 arg4 harg4 arg5 harg5 arg6 harg6 arg7 harg7) K := by
  simp only [cc0__layer_body_eq_skeleton]; unfold cc0__layer_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  subst hf1 hf2 hf3 hf4 hf5
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (coverO _)]
    unfold outO scr
    rw [View.readCov_eq_canon_ld _ _ rLo (coverS _), View.readCov_eq_canon_ld _ _ rHi (coverS _)]
    rfl
  iexists _; isplitr
  swap; · iexact HS
  ipureintro
  sl_unfold_words
  exact View.read_writes_eq_canon _ _ _ (coverS _)

set_option maxHeartbeats 1000000 in
/-- At every later grid point: the scratch holds `xs` and is only read; the output block is computed from its two halves. -/
theorem run_rest (c : Dev nD) (E : Set ℕ) (i : grid0.Coords) (hc : ¬ cond i)
    (arg1 : Memref sig .tc .vmem S256x4096 .f32) (harg1 : arg1.IsWhole) (arg2 : Memref sig .tc .vmem S256x4096 .f32) (harg2 : arg2.IsWhole)
    (arg3 : Memref sig .tc .vmem S8192x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S256x64 .f32) (harg6 : arg6.IsWhole)
    (arg7 : Memref sig .tc .vmem S8192x64 .bf16) (harg7 : arg7.IsWhole)
    (x1 x2 : Vec F S256x4096 .f32) (x3 : Vec F S8192x128 .f32) (x4 : Vec F S128x64 .f32) (x5 : Vec F S1x64 .f32) (xs : Vec F S8192x64 .bf16)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ owns (c : Thread nD τ) arg7 fullShare xs
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
            ∗ owns (c : Thread nD τ) arg6 fullShare (outO x1 x2 x5 xs) ∗ owns (c : Thread nD τ) arg7 fullShare xs) -∗ K ⟨⟩))
      ⊢ wp frame (wpE (defs₀ (F := F)) Variants.none c none) E (cc0__layer_body i arg1 harg1 arg2 harg2 arg3 harg3 arg4 harg4 arg5 harg5 arg6 harg6 arg7 harg7) K := by
  simp only [cc0__layer_body_eq_skeleton]; unfold cc0__layer_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf1 hf2 hf3 hf4 hf5 hfs
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists fs; isplitr; · ipureintro; rfl
  iexact HS

/-! ## The proof data, at the buffer contents `V` the region is entered from -/

section Region

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the two column-half
    windows are fetched at every point, the three whole-array windows at the first only and their index never moves. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The first grid point. -/
def t0 : Fin cfg0.N := ⟨0, lt_of_lt_of_eq (by decide : 0 < 32) N_0.symm⟩

/-- The kernel's scratch as a whole memref. -/
abbrev scM : Memref sig .tc .vmem S8192x64 .bf16 := Memref.whole cc0_scratch0

/-- What the scratch holds after any point: the projection of the source window's block by the weight window's. -/
def scrAt (c : Dev nD) : Vec F S8192x64 .bf16 := scr (iblk V c 2 t0) (iblk V c 3 t0)

/-- What the body leaves in the output window's buffer at point `t`. -/
def outAt (c : Dev nD) (t : Fin cfg0.N) : Vec F S256x64 .f32 :=
  outO (iblk V c 0 t) (iblk V c 1 t) (iblk V c 4 t) (scrAt V c)

/-- Every other scoped buffer that is no staging buffer of this call (the other call's staging buffers and scratch), each at
    some contents: they ride along untouched. -/
def rest10 (c : Dev nD) : sProp 𝕄 :=
  Pipeline.scopedRestBut (Ix := Unit) (Name := ℕ) (U := UR sig nD τ) (Lvl := ℕ) (Val := Elt F) spec0 c [cc0_scratch0]

/-- The class invariant with the kernel's scratch owned as a memref at some contents and the other call's buffers beside it. -/
theorem PhiA_eq (c : Dev nD) : (Pipeline.ΦA spec0 c : sProp 𝕄) = iprop(((∃ d, owns (c : Thread nD τ) scM fullShare d) ∗ rest10 c) ∗ ∃ r, prngReg c r) := by
  unfold Pipeline.ΦA rest10
  rw [Pipeline.scopedRest_split_of_list spec0 c [cc0_scratch0] (by decide) (by decide)]
  simp only [Idealize.SL.BI.bigSepL_singleton, scM, owns_whole]
  rfl
theorem PhiA_in (c : Dev nD) : (Pipeline.ΦA spec0 c : sProp 𝕄) ⊢ iprop(((∃ d, owns (c : Thread nD τ) scM fullShare d) ∗ rest10 c) ∗ ∃ r, prngReg c r) := Entails.of_eq (PhiA_eq c)
theorem PhiA_out (c : Dev nD) : iprop(((∃ d, owns (c : Thread nD τ) scM fullShare d) ∗ rest10 c) ∗ ∃ r, prngReg c r) ⊢ (Pipeline.ΦA spec0 c : sProp 𝕄) := Entails.of_eq (PhiA_eq c).symm

/-- The invariant before position `n`: before the first point the class's (every scoped buffer that is no staging buffer of
    this call at anything, the generator register at some state); afterwards the same with the scratch at the projection. -/
def PhiS (c : Dev nD) : ℕ → sProp 𝕄
  | 0 => Pipeline.ΦA spec0 c
  | _ + 1 => iprop((owns (c : Thread nD τ) scM fullShare (scrAt V c) ∗ rest10 c) ∗ ∃ r, prngReg c r)

theorem PhiS_zero (c : Dev nD) : PhiS V c 0 = Pipeline.ΦA spec0 c := rfl
theorem PhiS_pos (c : Dev nD) (n : ℕ) (hn : n ≠ 0) : PhiS V c n = iprop((owns (c : Thread nD τ) scM fullShare (scrAt V c) ∗ rest10 c) ∗ ∃ r, prngReg c r) := by
  cases n with
  | zero => exact absurd rfl hn
  | succ n => rfl

/-- The proof data of this pipeline on core `c`: the arrays as the region finds them; after the body each input's buffer at
    its block and the output's at `outAt`; the two windows on the dense matrix hold its array at the two halves of the full
    share, every other window's at the full share; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = outAt V c t := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 2000000 in
/-- The body at any point: the inputs' buffers hold their blocks; at the first point the invariant hands the scratch over at
    anything and takes it back at the projection, at a later point it hands it over at the projection and takes it back
    unchanged; the other call's buffers, the generator register and the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl,
    show (dat V c).Φ t.succ = PhiS V c (t.val + 1) from rfl,
    show (dat V c).Φ t.castSucc = PhiS V c t.val from rfl,
    after_0, after_1, after_2, after_3, after_4, after_5, PhiS_pos V c (t.val + 1) (Nat.succ_ne_zero _)]
  by_cases hz : t.val = 0
  · obtain rfl : t = t0 := Fin.ext hz
    rw [show PhiS V c (t0 : Fin cfg0.N).val = Pipeline.ΦA spec0 c from rfl]
    iintro ⟨HΦ, Ho, ⟨%d0, H0⟩, ⟨%d1, H1⟩, ⟨%d2, H2⟩, ⟨%d3, H3⟩, ⟨%d4, H4⟩, ⟨%d5, H5⟩⟩
    ihave HΦ' := (PhiA_in c) $$ HΦ
    icases HΦ' with ⟨⟨HS, Hr⟩, Hg⟩
    iapply (run_first c Set.univ (grid0.coords t0) ((hcond t0).mpr rfl) _ _ _ _ _ _ _ _ _ _ _ _ _ _
      (iblk V c 0 t0) (iblk V c 1 t0) (iblk V c 2 t0) (iblk V c 3 t0) (iblk V c 4 t0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c t.val hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (run_rest c Set.univ (grid0.coords t) (fun h => hz ((hcond t).mp h)) _ _ _ _ _ _ _ _ _ _ _ _ _ _
      (iblk V c 0 t) (iblk V c 1 t) (iblk V c 2 t) (iblk V c 3 t) (iblk V c 4 t) (scrAt V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := Entails.of_eq rfl

/-- After the last point the invariant gives the class's back: the scratch's contents are forgotten. -/
theorem hout (c : Dev nD) : (dat V c).Φ (Fin.last cfg0.N) ⊢ Pipeline.ΦA spec0 c := by
  rw [show (dat V c).Φ (Fin.last cfg0.N) = PhiS V c cfg0.N from rfl,
    PhiS_pos V c cfg0.N (by rw [show cfg0.N = 32 from N_0]; decide)]
  iintro ⟨⟨HS, Hr⟩, Hg⟩
  iapply (PhiA_out c)
  isplitl [HS Hr]
  · isplitl [HS]; · iexists _; iexact HS
    iexact Hr
  iexact Hg

/-! ## The region's arrays among the core's unscoped buffers

The dense matrix reaches the kernel through two windows: its buffer's full share is dealt to them as its two halves at the
region's entry and put together again at its exit; every other array belongs to one window, at the full share. -/

/-- The distinct buffers behind the windows' arrays, listed. -/
theorem arrBufs_eq (c : Dev nD) (W : (b : Ref sig .tc) → Buf (Elt F) ((c : Thread nD τ).loc b)) :
    (Pipeline.arrBufs spec0 c W : sProp 𝕄)
      = iprop((((c : Thread nD τ).loc main_arg2) ↦{fullShare} W main_arg2) ∗ (((c : Thread nD τ).loc main_arg0) ↦{fullShare} W main_arg0) ∗ (((c : Thread nD τ).loc main_arg3) ↦{fullShare} W main_arg3) ∗ (((c : Thread nD τ).loc main_v0) ↦{fullShare} W main_v0) ∗ (((c : Thread nD τ).loc main_v2) ↦{fullShare} W main_v2)) := by
  unfold Pipeline.arrBufs
  exact bigSep_eq_bigSepL_of_eq [main_arg2, main_arg0, main_arg3, main_v0, main_v2] (by decide) (by decide) _

/-- The pipeline's arrays after the write-backs below `n`, window by window: the dense matrix's buffer twice, at the two
    halves of the full share. -/
theorem arrays_chain (c : Dev nD) (n : ℕ) :
    ((dat V c).arrays ((dat V c).arrAt · n) : sProp 𝕄)
      = iprop((((c : Thread nD τ).loc main_arg2) ↦{fullShare.left} (dat V c).arrAt 0 n) ∗ (((c : Thread nD τ).loc main_arg2) ↦{fullShare.right} (dat V c).arrAt 1 n)
          ∗ (((c : Thread nD τ).loc main_arg0) ↦{fullShare} (dat V c).arrAt 2 n) ∗ (((c : Thread nD τ).loc main_arg3) ↦{fullShare} (dat V c).arrAt 3 n)
          ∗ (((c : Thread nD τ).loc main_v0) ↦{fullShare} (dat V c).arrAt 4 n) ∗ (((c : Thread nD τ).loc main_v2) ↦{fullShare} (dat V c).arrAt 5 n)) := by
  unfold Dat.arrays; rw [bigSep_W0]; simp only [View.set_whole]
  rfl

/-- An input window's array is never written: it holds the entry contents throughout. -/
theorem arrAt_0 (c : Dev nD) (n : ℕ) : (dat V c).arrAt 0 n = V c main_arg2 := ((dat V c).arrAt_in 0 rfl n).trans (A_eq V c 0)
theorem arrAt_1 (c : Dev nD) (n : ℕ) : (dat V c).arrAt 1 n = V c main_arg2 := ((dat V c).arrAt_in 1 rfl n).trans (A_eq V c 1)
theorem arrAt_2 (c : Dev nD) (n : ℕ) : (dat V c).arrAt 2 n = V c main_arg0 := ((dat V c).arrAt_in 2 rfl n).trans (A_eq V c 2)
theorem arrAt_3 (c : Dev nD) (n : ℕ) : (dat V c).arrAt 3 n = V c main_arg3 := ((dat V c).arrAt_in 3 rfl n).trans (A_eq V c 3)
theorem arrAt_4 (c : Dev nD) (n : ℕ) : (dat V c).arrAt 4 n = V c main_v0 := ((dat V c).arrAt_in 4 rfl n).trans (A_eq V c 4)

/-- ENTRY: the buffers behind the arrays, whole at the entry contents, are the pipeline's arrays at entry. -/
theorem arrays_in (c : Dev nD) : (Pipeline.arrBufs spec0 c (V c) : sProp 𝕄) ⊢ (dat V c).arrays ((dat V c).arrAt · 0) := by
  rw [arrBufs_eq, arrays_chain, arrAt_0 V c 0, arrAt_1 V c 0, arrAt_2 V c 0, arrAt_3 V c 0, arrAt_4 V c 0,
    show (dat V c).arrAt 5 0 = V c main_v2 from A_eq V c 5]
  iintro ⟨Hm, Hx, Hw, Hb, Ho⟩
  ihave Hm' := (pointsTo_share (PosShare.mem_left_op_right fullShare)).1 $$ Hm
  icases Hm' with ⟨Hl, Hr⟩
  isplitl [Hl]; · iexact Hl
  isplitl [Hr]; · iexact Hr
  isplitl [Hx]; · iexact Hx
  isplitl [Hw]; · iexact Hw
  isplitl [Hb]; · iexact Hb
  iexact Ho

/-- EXIT: the pipeline's arrays after the write-backs below `n` are the buffers behind them, whole, at any contents `W'` that
    has the output array at what those write-backs left and every other buffer as entered. -/
theorem arrays_out (c : Dev nD) (n : ℕ) (W' : (b : Ref sig .tc) → Buf (Elt F) ((c : Thread nD τ).loc b))
    (hW' : ∀ b, b ≠ main_v2 → W' b = V c b) (hv : W' main_v2 = (dat V c).arrAt 5 n) :
    (dat V c).arrays ((dat V c).arrAt · n) ⊢ (Pipeline.arrBufs spec0 c W' : sProp 𝕄) := by
  rw [arrBufs_eq, arrays_chain, arrAt_0 V c n, arrAt_1 V c n, arrAt_2 V c n, arrAt_3 V c n, arrAt_4 V c n,
    hW' main_arg2 (by decide), hW' main_arg0 (by decide), hW' main_arg3 (by decide), hW' main_v0 (by decide), hv]
  iintro ⟨Hl, Hr, Hx, Hw, Hb, Ho⟩
  isplitl [Hl Hr]
  · iapply (pointsTo_share (PosShare.mem_left_op_right fullShare)).2
    isplitl [Hl]; · iexact Hl
    iexact Hr
  isplitl [Hx]; · iexact Hx
  isplitl [Hw]; · iexact Hw
  isplitl [Hb]; · iexact Hb
  iexact Ho

/-- ENTRY, with the rest: the core's unscoped buffers at the entry contents are the pipeline's arrays and the buffers
    that are no window's array. -/
theorem bufs_in (c : Dev nD) :
    (unscopedBufs c (V c) : sProp 𝕄) ⊢ iprop((dat V c).arrays ((dat V c).arrAt · 0) ∗ Pipeline.unscopedRest spec0 c (V c)) := by
  rw [Pipeline.PerCore.unscopedBufs_split₀ (fun _ : Dev nD => cfgs) (0 : Fin 2) c winFacts₀0.arr_unscoped (V c)]
  exact sep_mono (arrays_in V c) .rfl

/-- EXIT, with the rest. -/
theorem bufs_out (c : Dev nD) (n : ℕ) (W' : (b : Ref sig .tc) → Buf (Elt F) ((c : Thread nD τ).loc b))
    (hW' : ∀ b, b ≠ main_v2 → W' b = V c b) (hv : W' main_v2 = (dat V c).arrAt 5 n) :
    iprop((dat V c).arrays ((dat V c).arrAt · n) ∗ Pipeline.unscopedRest spec0 c (V c)) ⊢ (unscopedBufs c W' : sProp 𝕄) := by
  rw [Pipeline.PerCore.unscopedBufs_split₀ (fun _ : Dev nD => cfgs) (0 : Fin 2) c winFacts₀0.arr_unscoped W']
  refine sep_mono (arrays_out V c n W' hW' hv) (Entails.of_eq ?_)
  unfold Pipeline.unscopedRest
  exact bigSep_congr fun b hb => by
    rw [hW' b (fun h => (Finset.mem_sdiff.mp hb).2 (h ▸ Finset.mem_image.mpr ⟨5, Finset.mem_univ _, rfl⟩))]

end Region

end Cert.KernelIdeal.R0

end
-- ==== Proof.IdealR1.lean ====
import proofs.«181717_g4698694221856_cont_8to1c4_439_7_alg».proof.Proof.Gen.KernelIdeal.Launch
import proofs.«181717_g4698694221856_cont_8to1c4_439_7_alg».proof.Proof.Gen.KernelIdeal.Skeleton
import proofs.«181717_g4698694221856_cont_8to1c4_439_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSep_eq_bigSepL_of_eq bigSep_congr)

variable {F : FTy → Type} [FloatOps F]

local notation "𝕄" => MT nD τ sig Unit (Elt F) ℕ (UR sig nD τ) ℕ

/-! # One graph-convolution layer as a pipelined kernel: the body's runs, the proof data, the body obligation

The body runs at 32 grid points. At the first it multiplies the whole source matrix by the weight matrix and keeps the
product in a scratch buffer; at every point it multiplies the point's two column halves of a 256-row block of the dense
matrix by the two row halves of that scratch, adds the two products and the bias row, and stores the 256-row block of the
result. So after any point the scratch holds one fixed matrix, the projection, and what the body leaves in the output
buffer at a point is one fixed function of the point's blocks and of that matrix. -/

/-- The body's branch condition from the grid coordinate: it is the first grid point. -/
abbrev cond (i : grid1.Coords) : Prop := (Scalar.cmpi .ne (Scalar.extui (Scalar.cmpi .eq (BitVec.ofNat 32 (i 0).val) 0#32)) 0#32) = 1#1
theorem hcond : ∀ t : Fin cfg1.N, cond (grid1.coords t) ↔ t.val = 0 :=
  (by decide +kernel : ∀ t : Fin grid1.N, cond (grid1.coords t) ↔ t.val = 0)

/-! ## The rectangles the body loads and stores through -/

abbrev rA : Rect S256x4096 := Rect.unit (s := S256x4096) ![0, 0] S256x4096.size inb_S256x4096_S256x4096_0_0
abbrev rX : Rect S8192x64 := Rect.unit (s := S8192x64) ![0, 0] S8192x64.size inb_S8192x64_S8192x64_0_0
abbrev rW : Rect S64x32 := Rect.unit (s := S64x32) ![0, 0] S64x32.size inb_S64x32_S64x32_0_0
abbrev rB : Rect S1x32 := Rect.unit (s := S1x32) ![0, 0] S1x32.size inb_S1x32_S1x32_0_0
abbrev rO : Rect S256x32 := Rect.unit (s := S256x32) ![0, 0] S256x32.size inb_S256x32_S256x32_0_0
abbrev rS : Rect S8192x32 := Rect.unit (s := S8192x32) ![0, 0] S8192x32.size inb_S8192x32_S8192x32_0_0
abbrev rLo : Rect S8192x32 := Rect.unit (s := S8192x32) ![0, 0] S4096x32.size inb_S8192x32_S4096x32_0_0
abbrev rHi : Rect S8192x32 := Rect.unit (s := S8192x32) ![4096, 0] S4096x32.size inb_S8192x32_S4096x32_4096_0

/-- What the body leaves in the output buffer: its one store's payload, from the two column-half blocks `x1`, `x2`, the bias
    row `x5` and the scratch's contents `xs` read through its two row halves. -/
def outO (x1 x2 : Vec F S256x4096 .f32) (x5 : Vec F S1x32 .f32) (xs : Vec F S8192x32 .bf16) : Vec F S256x32 .f32 :=
  View.canon [⟨rO, k1_pay2 (View.ld x1 rA) (View.ld xs rLo) (View.ld x2 rA) (View.ld xs rHi) (View.ld x5 rB)⟩]

/-- What the first point leaves in the scratch: the projection of the source `x3` by the weights `x4`. -/
def scr (x3 : Vec F S8192x64 .f32) (x4 : Vec F S64x32 .f32) : Vec F S8192x32 .bf16 :=
  View.canon [⟨rS, k1_pay1 (View.ld x3 rX) (View.ld x4 rW)⟩]

/-- The one store into the output buffer covers it. -/
theorem coverO (p0 : Vec F S256x32 .f32) (y : S256x32.Idx) :
    ∃ pc ∈ ([⟨rO, p0⟩] : List (View.Piece (Elt F) S256x32 .f32)), y ∈ pc.1.set :=
  View.cover_of_tiled [⟨rO, p0⟩] S256x32.size (by rfl) y
/-- The one store into the scratch covers it. -/
theorem coverS (p0 : Vec F S8192x32 .bf16) (y : S8192x32.Idx) :
    ∃ pc ∈ ([⟨rS, p0⟩] : List (View.Piece (Elt F) S8192x32 .bf16)), y ∈ pc.1.set :=
  View.cover_of_tiled [⟨rS, p0⟩] S8192x32.size (by rfl) y

/-! ## The body's two runs -/

set_option maxHeartbeats 1000000 in
/-- At the first grid point: the scratch is at anything; the body fills it with the projection, reads its two halves back and
    stores the output block computed from them. -/
theorem run_first (c : Dev nD) (E : Set ℕ) (i : grid1.Coords) (hc : cond i)
    (arg1 : Memref sig .tc .vmem S256x4096 .f32) (harg1 : arg1.IsWhole) (arg2 : Memref sig .tc .vmem S256x4096 .f32) (harg2 : arg2.IsWhole)
    (arg3 : Memref sig .tc .vmem S8192x64 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S256x32 .f32) (harg6 : arg6.IsWhole)
    (arg7 : Memref sig .tc .vmem S8192x32 .bf16) (harg7 : arg7.IsWhole)
    (x1 x2 : Vec F S256x4096 .f32) (x3 : Vec F S8192x64 .f32) (x4 : Vec F S64x32 .f32) (x5 : Vec F S1x32 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (∃ d, owns (c : Thread nD τ) arg7 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
            ∗ owns (c : Thread nD τ) arg6 fullShare (outO x1 x2 x5 (scr x3 x4)) ∗ owns (c : Thread nD τ) arg7 fullShare (scr x3 x4)) -∗ K ⟨⟩))
      ⊢ wp frame (wpE (defs₀ (F := F)) Variants.none c none) E (cc1__layer_body i arg1 harg1 arg2 harg2 arg3 harg3 arg4 harg4 arg5 harg5 arg6 harg6 arg7 harg7) K := by
  simp only [cc1__layer_body_eq_skeleton]; unfold cc1__layer_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  subst hf1 hf2 hf3 hf4 hf5
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (coverO _)]
    unfold outO scr
    rw [View.readCov_eq_canon_ld _ _ rLo (coverS _), View.readCov_eq_canon_ld _ _ rHi (coverS _)]
    rfl
  iexists _; isplitr
  swap; · iexact HS
  ipureintro
  sl_unfold_words
  exact View.read_writes_eq_canon _ _ _ (coverS _)

set_option maxHeartbeats 1000000 in
/-- At every later grid point: the scratch holds `xs` and is only read; the output block is computed from its two halves. -/
theorem run_rest (c : Dev nD) (E : Set ℕ) (i : grid1.Coords) (hc : ¬ cond i)
    (arg1 : Memref sig .tc .vmem S256x4096 .f32) (harg1 : arg1.IsWhole) (arg2 : Memref sig .tc .vmem S256x4096 .f32) (harg2 : arg2.IsWhole)
    (arg3 : Memref sig .tc .vmem S8192x64 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S256x32 .f32) (harg6 : arg6.IsWhole)
    (arg7 : Memref sig .tc .vmem S8192x32 .bf16) (harg7 : arg7.IsWhole)
    (x1 x2 : Vec F S256x4096 .f32) (x3 : Vec F S8192x64 .f32) (x4 : Vec F S64x32 .f32) (x5 : Vec F S1x32 .f32) (xs : Vec F S8192x32 .bf16)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ owns (c : Thread nD τ) arg7 fullShare xs
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
            ∗ owns (c : Thread nD τ) arg6 fullShare (outO x1 x2 x5 xs) ∗ owns (c : Thread nD τ) arg7 fullShare xs) -∗ K ⟨⟩))
      ⊢ wp frame (wpE (defs₀ (F := F)) Variants.none c none) E (cc1__layer_body i arg1 harg1 arg2 harg2 arg3 harg3 arg4 harg4 arg5 harg5 arg6 harg6 arg7 harg7) K := by
  simp only [cc1__layer_body_eq_skeleton]; unfold cc1__layer_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf1 hf2 hf3 hf4 hf5 hfs
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists fs; isplitr; · ipureintro; rfl
  iexact HS

/-! ## The proof data, at the buffer contents `V` the region is entered from -/

section Region

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the two column-half
    windows are fetched at every point, the three whole-array windows at the first only and their index never moves. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The first grid point. -/
def t0 : Fin cfg1.N := ⟨0, lt_of_lt_of_eq (by decide : 0 < 32) N_1.symm⟩

/-- The kernel's scratch as a whole memref. -/
abbrev scM : Memref sig .tc .vmem S8192x32 .bf16 := Memref.whole cc1_scratch0

/-- What the scratch holds after any point: the projection of the source window's block by the weight window's. -/
def scrAt (c : Dev nD) : Vec F S8192x32 .bf16 := scr (iblk V c 2 t0) (iblk V c 3 t0)

/-- What the body leaves in the output window's buffer at point `t`. -/
def outAt (c : Dev nD) (t : Fin cfg1.N) : Vec F S256x32 .f32 :=
  outO (iblk V c 0 t) (iblk V c 1 t) (iblk V c 4 t) (scrAt V c)

/-- Every other scoped buffer that is no staging buffer of this call (the other call's staging buffers and scratch), each at
    some contents: they ride along untouched. -/
def rest10 (c : Dev nD) : sProp 𝕄 :=
  Pipeline.scopedRestBut (Ix := Unit) (Name := ℕ) (U := UR sig nD τ) (Lvl := ℕ) (Val := Elt F) spec1 c [cc1_scratch0]

/-- The class invariant with the kernel's scratch owned as a memref at some contents and the other call's buffers beside it. -/
theorem PhiA_eq (c : Dev nD) : (Pipeline.ΦA spec1 c : sProp 𝕄) = iprop(((∃ d, owns (c : Thread nD τ) scM fullShare d) ∗ rest10 c) ∗ ∃ r, prngReg c r) := by
  unfold Pipeline.ΦA rest10
  rw [Pipeline.scopedRest_split_of_list spec1 c [cc1_scratch0] (by decide) (by decide)]
  simp only [Idealize.SL.BI.bigSepL_singleton, scM, owns_whole]
  rfl
theorem PhiA_in (c : Dev nD) : (Pipeline.ΦA spec1 c : sProp 𝕄) ⊢ iprop(((∃ d, owns (c : Thread nD τ) scM fullShare d) ∗ rest10 c) ∗ ∃ r, prngReg c r) := Entails.of_eq (PhiA_eq c)
theorem PhiA_out (c : Dev nD) : iprop(((∃ d, owns (c : Thread nD τ) scM fullShare d) ∗ rest10 c) ∗ ∃ r, prngReg c r) ⊢ (Pipeline.ΦA spec1 c : sProp 𝕄) := Entails.of_eq (PhiA_eq c).symm

/-- The invariant before position `n`: before the first point the class's (every scoped buffer that is no staging buffer of
    this call at anything, the generator register at some state); afterwards the same with the scratch at the projection. -/
def PhiS (c : Dev nD) : ℕ → sProp 𝕄
  | 0 => Pipeline.ΦA spec1 c
  | _ + 1 => iprop((owns (c : Thread nD τ) scM fullShare (scrAt V c) ∗ rest10 c) ∗ ∃ r, prngReg c r)

theorem PhiS_zero (c : Dev nD) : PhiS V c 0 = Pipeline.ΦA spec1 c := rfl
theorem PhiS_pos (c : Dev nD) (n : ℕ) (hn : n ≠ 0) : PhiS V c n = iprop((owns (c : Thread nD τ) scM fullShare (scrAt V c) ∗ rest10 c) ∗ ∃ r, prngReg c r) := by
  cases n with
  | zero => exact absurd rfl hn
  | succ n => rfl

/-- The proof data of this pipeline on core `c`: the arrays as the region finds them; after the body each input's buffer at
    its block and the output's at `outAt`; the two windows on the dense matrix hold its array at the two halves of the full
    share, every other window's at the full share; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outAt V c t := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

set_option maxHeartbeats 2000000 in
/-- The body at any point: the inputs' buffers hold their blocks; at the first point the invariant hands the scratch over at
    anything and takes it back at the projection, at a later point it hands it over at the projection and takes it back
    unchanged; the other call's buffers, the generator register and the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl,
    show (dat V c).Φ t.succ = PhiS V c (t.val + 1) from rfl,
    show (dat V c).Φ t.castSucc = PhiS V c t.val from rfl,
    after_0, after_1, after_2, after_3, after_4, after_5, PhiS_pos V c (t.val + 1) (Nat.succ_ne_zero _)]
  by_cases hz : t.val = 0
  · obtain rfl : t = t0 := Fin.ext hz
    rw [show PhiS V c (t0 : Fin cfg1.N).val = Pipeline.ΦA spec1 c from rfl]
    iintro ⟨HΦ, Ho, ⟨%d0, H0⟩, ⟨%d1, H1⟩, ⟨%d2, H2⟩, ⟨%d3, H3⟩, ⟨%d4, H4⟩, ⟨%d5, H5⟩⟩
    ihave HΦ' := (PhiA_in c) $$ HΦ
    icases HΦ' with ⟨⟨HS, Hr⟩, Hg⟩
    iapply (run_first c Set.univ (grid1.coords t0) ((hcond t0).mpr rfl) _ _ _ _ _ _ _ _ _ _ _ _ _ _
      (iblk V c 0 t0) (iblk V c 1 t0) (iblk V c 2 t0) (iblk V c 3 t0) (iblk V c 4 t0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c t.val hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (run_rest c Set.univ (grid1.coords t) (fun h => hz ((hcond t).mp h)) _ _ _ _ _ _ _ _ _ _ _ _ _ _
      (iblk V c 0 t) (iblk V c 1 t) (iblk V c 2 t) (iblk V c 3 t) (iblk V c 4 t) (scrAt V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := Entails.of_eq rfl

/-- After the last point the invariant gives the class's back: the scratch's contents are forgotten. -/
theorem hout (c : Dev nD) : (dat V c).Φ (Fin.last cfg1.N) ⊢ Pipeline.ΦA spec1 c := by
  rw [show (dat V c).Φ (Fin.last cfg1.N) = PhiS V c cfg1.N from rfl,
    PhiS_pos V c cfg1.N (by rw [show cfg1.N = 32 from N_1]; decide)]
  iintro ⟨⟨HS, Hr⟩, Hg⟩
  iapply (PhiA_out c)
  isplitl [HS Hr]
  · isplitl [HS]; · iexists _; iexact HS
    iexact Hr
  iexact Hg

/-! ## The region's arrays among the core's unscoped buffers

The dense matrix reaches the kernel through two windows: its buffer's full share is dealt to them as its two halves at the
region's entry and put together again at its exit; every other array belongs to one window, at the full share. -/

/-- The distinct buffers behind the windows' arrays, listed. -/
theorem arrBufs_eq (c : Dev nD) (W : (b : Ref sig .tc) → Buf (Elt F) ((c : Thread nD τ).loc b)) :
    (Pipeline.arrBufs spec1 c W : sProp 𝕄)
      = iprop((((c : Thread nD τ).loc main_arg1) ↦{fullShare} W main_arg1) ∗ (((c : Thread nD τ).loc main_v2) ↦{fullShare} W main_v2) ∗ (((c : Thread nD τ).loc main_arg5) ↦{fullShare} W main_arg5) ∗ (((c : Thread nD τ).loc main_v1) ↦{fullShare} W main_v1) ∗ (((c : Thread nD τ).loc main_v3) ↦{fullShare} W main_v3)) := by
  unfold Pipeline.arrBufs
  exact bigSep_eq_bigSepL_of_eq [main_arg1, main_v2, main_arg5, main_v1, main_v3] (by decide) (by decide) _

/-- The pipeline's arrays after the write-backs below `n`, window by window: the dense matrix's buffer twice, at the two
    halves of the full share. -/
theorem arrays_chain (c : Dev nD) (n : ℕ) :
    ((dat V c).arrays ((dat V c).arrAt · n) : sProp 𝕄)
      = iprop((((c : Thread nD τ).loc main_arg1) ↦{fullShare.left} (dat V c).arrAt 0 n) ∗ (((c : Thread nD τ).loc main_arg1) ↦{fullShare.right} (dat V c).arrAt 1 n)
          ∗ (((c : Thread nD τ).loc main_v2) ↦{fullShare} (dat V c).arrAt 2 n) ∗ (((c : Thread nD τ).loc main_arg5) ↦{fullShare} (dat V c).arrAt 3 n)
          ∗ (((c : Thread nD τ).loc main_v1) ↦{fullShare} (dat V c).arrAt 4 n) ∗ (((c : Thread nD τ).loc main_v3) ↦{fullShare} (dat V c).arrAt 5 n)) := by
  unfold Dat.arrays; rw [bigSep_W1]; simp only [View.set_whole]
  rfl

/-- An input window's array is never written: it holds the entry contents throughout. -/
theorem arrAt_0 (c : Dev nD) (n : ℕ) : (dat V c).arrAt 0 n = V c main_arg1 := ((dat V c).arrAt_in 0 rfl n).trans (A_eq V c 0)
theorem arrAt_1 (c : Dev nD) (n : ℕ) : (dat V c).arrAt 1 n = V c main_arg1 := ((dat V c).arrAt_in 1 rfl n).trans (A_eq V c 1)
theorem arrAt_2 (c : Dev nD) (n : ℕ) : (dat V c).arrAt 2 n = V c main_v2 := ((dat V c).arrAt_in 2 rfl n).trans (A_eq V c 2)
theorem arrAt_3 (c : Dev nD) (n : ℕ) : (dat V c).arrAt 3 n = V c main_arg5 := ((dat V c).arrAt_in 3 rfl n).trans (A_eq V c 3)
theorem arrAt_4 (c : Dev nD) (n : ℕ) : (dat V c).arrAt 4 n = V c main_v1 := ((dat V c).arrAt_in 4 rfl n).trans (A_eq V c 4)

/-- ENTRY: the buffers behind the arrays, whole at the entry contents, are the pipeline's arrays at entry. -/
theorem arrays_in (c : Dev nD) : (Pipeline.arrBufs spec1 c (V c) : sProp 𝕄) ⊢ (dat V c).arrays ((dat V c).arrAt · 0) := by
  rw [arrBufs_eq, arrays_chain, arrAt_0 V c 0, arrAt_1 V c 0, arrAt_2 V c 0, arrAt_3 V c 0, arrAt_4 V c 0,
    show (dat V c).arrAt 5 0 = V c main_v3 from A_eq V c 5]
  iintro ⟨Hm, Hx, Hw, Hb, Ho⟩
  ihave Hm' := (pointsTo_share (PosShare.mem_left_op_right fullShare)).1 $$ Hm
  icases Hm' with ⟨Hl, Hr⟩
  isplitl [Hl]; · iexact Hl
  isplitl [Hr]; · iexact Hr
  isplitl [Hx]; · iexact Hx
  isplitl [Hw]; · iexact Hw
  isplitl [Hb]; · iexact Hb
  iexact Ho

/-- EXIT: the pipeline's arrays after the write-backs below `n` are the buffers behind them, whole, at any contents `W'` that
    has the output array at what those write-backs left and every other buffer as entered. -/
theorem arrays_out (c : Dev nD) (n : ℕ) (W' : (b : Ref sig .tc) → Buf (Elt F) ((c : Thread nD τ).loc b))
    (hW' : ∀ b, b ≠ main_v3 → W' b = V c b) (hv : W' main_v3 = (dat V c).arrAt 5 n) :
    (dat V c).arrays ((dat V c).arrAt · n) ⊢ (Pipeline.arrBufs spec1 c W' : sProp 𝕄) := by
  rw [arrBufs_eq, arrays_chain, arrAt_0 V c n, arrAt_1 V c n, arrAt_2 V c n, arrAt_3 V c n, arrAt_4 V c n,
    hW' main_arg1 (by decide), hW' main_v2 (by decide), hW' main_arg5 (by decide), hW' main_v1 (by decide), hv]
  iintro ⟨Hl, Hr, Hx, Hw, Hb, Ho⟩
  isplitl [Hl Hr]
  · iapply (pointsTo_share (PosShare.mem_left_op_right fullShare)).2
    isplitl [Hl]; · iexact Hl
    iexact Hr
  isplitl [Hx]; · iexact Hx
  isplitl [Hw]; · iexact Hw
  isplitl [Hb]; · iexact Hb
  iexact Ho

/-- ENTRY, with the rest: the core's unscoped buffers at the entry contents are the pipeline's arrays and the buffers
    that are no window's array. -/
theorem bufs_in (c : Dev nD) :
    (unscopedBufs c (V c) : sProp 𝕄) ⊢ iprop((dat V c).arrays ((dat V c).arrAt · 0) ∗ Pipeline.unscopedRest spec1 c (V c)) := by
  rw [Pipeline.PerCore.unscopedBufs_split₀ (fun _ : Dev nD => cfgs) (1 : Fin 2) c winFacts₀1.arr_unscoped (V c)]
  exact sep_mono (arrays_in V c) .rfl

/-- EXIT, with the rest. -/
theorem bufs_out (c : Dev nD) (n : ℕ) (W' : (b : Ref sig .tc) → Buf (Elt F) ((c : Thread nD τ).loc b))
    (hW' : ∀ b, b ≠ main_v3 → W' b = V c b) (hv : W' main_v3 = (dat V c).arrAt 5 n) :
    iprop((dat V c).arrays ((dat V c).arrAt · n) ∗ Pipeline.unscopedRest spec1 c (V c)) ⊢ (unscopedBufs c W' : sProp 𝕄) := by
  rw [Pipeline.PerCore.unscopedBufs_split₀ (fun _ : Dev nD => cfgs) (1 : Fin 2) c winFacts₀1.arr_unscoped W']
  refine sep_mono (arrays_out V c n W' hW' hv) (Entails.of_eq ?_)
  unfold Pipeline.unscopedRest
  exact bigSep_congr fun b hb => by
    rw [hW' b (fun h => (Finset.mem_sdiff.mp hb).2 (h ▸ Finset.mem_image.mpr ⟨5, Finset.mem_univ _, rfl⟩))]

end Region

end Cert.KernelIdeal.R1

end
-- ==== Proof.IdealRun.lean ====
import proofs.«181717_g4698694221856_cont_8to1c4_439_7_alg».proof.Proof.IdealR0
import proofs.«181717_g4698694221856_cont_8to1c4_439_7_alg».proof.Proof.IdealR1
import proofs.«181717_g4698694221856_cont_8to1c4_439_7_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The two layers as segments of the program: what each leaves, the proof data family, the regions' records

The program reshapes the two bias vectors, runs the first layer's kernel (which writes the hidden layer's buffer) and
then the second layer's (which reads it and writes the result). Between two items the core holds every unscoped buffer
at named contents: the launch contents, then the reshapes' results, then the hidden layer at what the first kernel's
write-backs leave, then the result at what the second's leave. -/

/-- Core `c`'s buffers after the two reshapes, read at the TensorCore's references: what the first kernel is entered from. -/
abbrev U1 (c : Dev nD) (b : Ref sig .tc) : Buf (Elt F) ((c : Thread nD τ).loc b) := Gen.V1 m c b

/-- What the first kernel leaves in the hidden layer's buffer: its output array after the last write-back. -/
def X2 (c : Dev nD) : Buf (Elt F) ((c : Thread nD τ).loc main_v2) := (R0.dat (U1 m) c).arrAt 5 cfg0.N

/-- Core `c`'s buffers after the first kernel. -/
abbrev W2 (c : Dev nD) : Valuation τ sig (Elt F) := Function.update (Gen.V1 m c) main_v2 (X2 m c)
/-- The same read at the TensorCore's references: what the second kernel is entered from. -/
abbrev U2 (c : Dev nD) (b : Ref sig .tc) : Buf (Elt F) ((c : Thread nD τ).loc b) := W2 m c b

/-- What the second kernel leaves in the result's buffer. -/
def X3 (c : Dev nD) : Buf (Elt F) ((c : Thread nD τ).loc main_v3) := (R1.dat (U2 m) c).arrAt 5 cfg1.N

/-- Core `c`'s buffers after the second kernel. -/
abbrev W3 (c : Dev nD) : Valuation τ sig (Elt F) := Function.update (W2 m c) main_v3 (X3 m c)

/-- What the regions leave in the buffers they may change: the hidden layer after the first kernel, the result after the
    second; no other entry is read. -/
def outs : Gen.Outs (F := F) := fun J r c =>
  match J with
  | 2 => if h : r = main_v2 then h ▸ X2 m c else m ((c : Thread nD τ).loc r)
  | _ => if h : r = main_v3 then h ▸ X3 m c else m ((c : Thread nD τ).loc r)

theorem outs_2 (c : Dev nD) : outs m 2 main_v2 c = X2 m c := by
  show (if h : main_v2 = main_v2 then h ▸ X2 m c else m ((c : Thread nD τ).loc main_v2)) = _
  rw [dif_pos rfl]
theorem outs_3 (c : Dev nD) : outs m 3 main_v3 c = X3 m c := by
  show (if h : main_v3 = main_v3 then h ▸ X3 m c else m ((c : Thread nD τ).loc main_v3)) = _
  rw [dif_pos rfl]

theorem V2_eq (c : Dev nD) : Gen.V2 m (outs m) c = W2 m c := by
  show Function.update (Gen.V1 m c) main_v2 (outs m 2 main_v2 c) = _
  rw [outs_2]
theorem V3_eq (c : Dev nD) : Gen.V3 m (outs m) c = W3 m c := by
  show Function.update (Gen.V2 m (outs m) c) main_v3 (outs m 3 main_v3 c) = _
  rw [V2_eq, outs_3]

/-- Both pipelines' proof data, each at its region's entry contents. -/
def pdats : (p : Fin 2) → (c : Dev nD) → Dat τ (Elt F) Unit ℕ (UR sig nD τ) ℕ (cfgs p) c
  | ⟨0, _⟩ => fun c => R0.dat (U1 m) c
  | ⟨1, _⟩ => fun c => R1.dat (U2 m) c

/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)

theorem W2_of_ne (c : Dev nD) (b : Ref sig .tc) (hb : b ≠ main_v2) : U2 m c b = U1 m c b :=
  Function.update_of_ne (StableHlo.devRef_ne_of_ne hb : (Proc.devRef .tc b : DevRef τ sig) ≠ Proc.devRef .tc main_v2) _ _
theorem W2_self (c : Dev nD) : U2 m c main_v2 = (R0.dat (U1 m) c).arrAt 5 cfg0.N :=
  Function.update_self _ _ _
theorem W3_of_ne (c : Dev nD) (b : Ref sig .tc) (hb : b ≠ main_v3) : W3 m c b = U2 m c b :=
  Function.update_of_ne (StableHlo.devRef_ne_of_ne hb : (Proc.devRef .tc b : DevRef τ sig) ≠ Proc.devRef .tc main_v3) _ _
theorem W3_self (c : Dev nD) : W3 m c main_v3 = (R1.dat (U2 m) c).arrAt 5 cfg1.N :=
  Function.update_self _ _ _

set_option backward.isDefEq.respectTransparency.types false in
/-- The first layer's kernel as a segment: entered from every unscoped buffer at the reshapes' results, left with the
    hidden layer's buffer at what its write-backs leave. The dense matrix's buffer is dealt to its two windows in halves
    and put together at the exit; the generator register goes into the invariant and comes back; nothing is owed. -/
def reg0 : RegionSeg (pcfgs (F := F)) Gen.adm (pdats m) () defs₀ Variants.none L lv 0 where
  win := winFacts₀0
  block_pos := block_pos0
  stage_whole := stage_whole0
  K := PEmpty
  osem k := k.elim
  ho := Pipeline.OwnSemFacts.none _
  hbody c := (R0.body_obligation (U1 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := R0.bufs_in (U1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (R0.hout (U1 m) c).trans ?_
    unfold Pipeline.ΦA
    iintro ⟨Hr, Hp⟩
    isplitl [Hp]; · iexact Hp
    isplitr; · iempintro
    iexact Hr
  hexit c := by
    have hjoin := R0.bufs_out (U1 m) c cfg0.N (U2 m c) (W2_of_ne m c) (W2_self m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second layer's kernel as a segment: entered from the buffers as the first left them, left with the result's
    buffer at what its write-backs leave. -/
def reg1 : RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (R1.body_obligation (U2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := R1.bufs_in (U2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (R1.hout (U2 m) c).trans ?_
    unfold Pipeline.ΦA
    iintro ⟨Hr, Hp⟩
    isplitl [Hp]; · iexact Hp
    isplitr; · iempintro
    iexact Hr
  hexit c := by
    have hjoin := R1.bufs_out (U2 m) c cfg1.N (fun b => W3 m c b) (W3_of_ne m c) (W3_self m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The frame -/

/-- The launch element: the pipeline library's, at both pipelines' staging cells. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the rest state: its generator register, owing nothing. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rr c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- Every weakly fair execution of the program terminates, nothing faulting, and every final memory holds each argument
    array as launched: the conditional frame of the two regions' records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () Variants.none L lv (fun _ _ => rfl) ρ (outs m) (pdats m) 0 (fun _ => iprop(emp))
    (initOf (Pipeline.cells cfgs cellOf_inj) (Pipeline.launchToks cfgs cellOf_inj)) hu₀
    (fun _ c => Rr c) (hE0 ρ)
    (fun c => by iintro ⟨-, HO⟩; iexact HO)
    (reg0 m) (fun c => .rfl) (fun c => by rw [V2_eq]; exact .rfl)
    (reg1 m) (fun c => by rw [V2_eq]; exact .rfl) (fun c => by rw [V3_eq]; exact .rfl)

end Cert.KernelIdeal.Run

end
-- ==== Proof.Spec.lean ====
/- The function both programs compute, stated once over literal shapes at the ideal instance.

   A two-layer graph convolution.  With x : [8192,128], W1 : [128,64], b1 : [64], W2 : [64,32], b2 : [32] and two
   dense 8192 x 8192 matrices FN, NF:
     P1[k,j]  = sum over a < 128 of x[k,a] * W1[a,j]
     H[r,j]   = max ((sum over k < 8192 of FN[r,k] * P1[k,j]) + b1[j]) 0
     P2[k,j]  = sum over a < 64 of H[k,a] * W2[a,j]
     out[r,j] = (sum over k < 8192 of NF[r,k] * P2[k,j]) + b2[j]
   The kernel contracts the 8192 columns of FN (of NF) in two halves of 4096 and adds the halves; over any
   commutative additive monoid the two half sums add up to the whole sum (`sum_halves`), so no finiteness of the
   inputs is needed: the extended reals add commutatively and associatively everywhere. -/
import Idealize.ShloMosaic.PureOps.Ideal
import Idealize.ShloMosaic.Lib.ValueIdx
import Mathlib.Algebra.BigOperators.Fin

noncomputable section

namespace Cert.Spec

open Idealize.ShloMosaic Idealize.ShloMosaic.ValueIdx

abbrev T8192x128 : Shape := ⟨2, ![8192, 128]⟩
abbrev T8192x8192 : Shape := ⟨2, ![8192, 8192]⟩
abbrev T128x64 : Shape := ⟨2, ![128, 64]⟩
abbrev T64 : Shape := ⟨1, ![64]⟩
abbrev T64x32 : Shape := ⟨2, ![64, 32]⟩
abbrev T32 : Shape := ⟨1, ![32]⟩
abbrev T8192x64 : Shape := ⟨2, ![8192, 64]⟩
abbrev T8192x32 : Shape := ⟨2, ![8192, 32]⟩

/-- The first layer's projection: row `k` of `x` against column `j` of `W1`. -/
def proj1 (x : T8192x128.Idx → EReal) (w1 : T128x64.Idx → EReal) : T8192x64.Idx → EReal :=
  fun i => ∑ a : Fin 128, x (ix2 (i 0) a) * w1 (ix2 a (i 1))

/-- The hidden layer: row `r` of `FN` against column `j` of the projection, plus the bias, clamped at zero. -/
def hidden (x : T8192x128.Idx → EReal) (fn : T8192x8192.Idx → EReal) (w1 : T128x64.Idx → EReal)
    (b1 : T64.Idx → EReal) : T8192x64.Idx → EReal :=
  fun i => max ((∑ k : Fin 8192, fn (ix2 (i 0) k) * proj1 x w1 (ix2 k (i 1))) + b1 (ix1 (i 1))) 0

/-- The second layer's projection of a hidden layer `h`. -/
def proj2 (h : T8192x64.Idx → EReal) (w2 : T64x32.Idx → EReal) : T8192x32.Idx → EReal :=
  fun i => ∑ a : Fin 64, h (ix2 (i 0) a) * w2 (ix2 a (i 1))

/-- The output layer over a hidden layer `h`: row `r` of `NF` against column `j` of the second projection, plus the bias. -/
def outOf (h : T8192x64.Idx → EReal) (nf : T8192x8192.Idx → EReal) (w2 : T64x32.Idx → EReal)
    (b2 : T32.Idx → EReal) : T8192x32.Idx → EReal :=
  fun i => (∑ k : Fin 8192, nf (ix2 (i 0) k) * proj2 h w2 (ix2 k (i 1))) + b2 (ix1 (i 1))

/-- The whole network's result as one function of the seven argument arrays. -/
def G (x : T8192x128.Idx → EReal) (nf fn : T8192x8192.Idx → EReal) (w1 : T128x64.Idx → EReal)
    (b1 : T64.Idx → EReal) (w2 : T64x32.Idx → EReal) (b2 : T32.Idx → EReal) : T8192x32.Idx → EReal :=
  outOf (hidden x fn w1 b1) nf w2 b2

/-- A sum over 8192 terms is the sum of its first 4096 terms plus the sum of its last 4096. -/
theorem sum_halves {M : Type*} [AddCommMonoid M] (f : Fin 8192 → M) :
    (∑ k : Fin 4096, f ⟨k.val, by omega⟩) + (∑ k : Fin 4096, f ⟨4096 + k.val, by omega⟩) = ∑ k : Fin 8192, f k := by
  have h := Fin.sum_univ_add (a := 4096) (b := 4096) (fun i : Fin (4096 + 4096) => f ⟨i.val, by have := i.isLt; omega⟩)
  rw [show (∑ k : Fin 8192, f k) = ∑ i : Fin (4096 + 4096), f ⟨i.val, by have := i.isLt; omega⟩ from rfl, h]
  rfl

end Cert.Spec

end
-- ==== Proof.Payload.lean ====
/- The four pure payloads of the two kernel bodies, read at an index at the ideal values.

   Each body stores two values. The first (stored once, at the first grid point) is a plain product: the whole
   [8192,128] input against the [128,64] weights (second body: the [8192,64] hidden layer against the [64,32] weights),
   narrowed to bf16, which at the ideal values is the identity. The second is one [256,·] block of the layer's result:
   a [256,4096] block of columns 0..4095 of the dense matrix against the upper half of the stored product, plus a
   [256,4096] block of columns 4096..8191 against the lower half, plus the bias row broadcast over the 256 rows (and,
   in the first body, clamped below at zero).

   At the ideal values a product accumulated into the zero constant, read at row `p` and column `c`, is the plain sum
   over the one contraction coordinate of left[p,a] * right[a,c]; the contraction's index set is identified with its
   one coordinate. The pointwise operations (sum, maximum, narrowing, scalar broadcast) read through at an index by
   definition, a cast of a shape to itself is the identity, and a [1,b] row broadcast to [a,b] reads the row. -/
import proofs.«181717_g4698694221856_cont_8to1c4_439_7_alg».proof.Proof.Gen.KernelIdeal.Skeleton
import proofs.«181717_g4698694221856_cont_8to1c4_439_7_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## The four contractions, each read at an index -/

/-! ### The contraction `[8192,128] x [128,64]` -/

/-- The left operand's row coordinate is the output's row. -/
theorem lhsA_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
/-- The left operand's column coordinate is the contraction index. -/
theorem lhsA_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
/-- The right operand's row coordinate is the contraction index. -/
theorem rhsA_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
/-- The right operand's column coordinate is the output's column. -/
theorem rhsA_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- The product accumulated into zero, read at row `p` and column `c`: the sum over the 128 contraction indices of
    the left operand's row `p` times the right operand's column `c`. -/
theorem matmulA_apply {φ₁ φ₂ : FTy} (l : FVec Ideal S8192x128 φ₁) (r : FVec Ideal S128x64 φ₂) (p : Fin 8192) (c : Fin 64) :
    matmul dot_S8192x128_S128x64_S8192x64_1_0_0_1_n_n none l r (constant (F := Ideal) S8192x64 .f32 0x00000000#32) (ix2 p c)
      = ∑ a : Fin 128, l (ix2 p a) * r (ix2 a c) := by
  show FloatOps.matmul dot_S8192x128_S128x64_S8192x64_1_0_0_1_n_n none l r (constant (F := Ideal) S8192x64 .f32 0x00000000#32) (ix2 p c) = _
  rw [Ideal.matmul_constant_zero_apply, ← Equiv.sum_comp (ValueIdx.contrEquiv1 dot_S8192x128_S128x64_S8192x64_1_0_0_1_n_n 128 rfl rfl).symm]
  refine Finset.sum_congr rfl fun a _ => ?_
  have ha := ValueIdx.contrEquiv1_symm_val dot_S8192x128_S128x64_S8192x64_1_0_0_1_n_n 128 rfl rfl a
  have el : dot_S8192x128_S128x64_S8192x64_1_0_0_1_n_n.lhsIdx (ix2 p c) ((ValueIdx.contrEquiv1 dot_S8192x128_S128x64_S8192x64_1_0_0_1_n_n 128 rfl rfl).symm a) = ix2 p a := funext fun ax => Fin.ext (by
    match ax with
    | ⟨0, _⟩ => exact lhsA_0 _ _
    | ⟨1, _⟩ => exact (lhsA_1 _ _).trans ha)
  have er : dot_S8192x128_S128x64_S8192x64_1_0_0_1_n_n.rhsIdx (ix2 p c) ((ValueIdx.contrEquiv1 dot_S8192x128_S128x64_S8192x64_1_0_0_1_n_n 128 rfl rfl).symm a) = ix2 a c := funext fun ax => Fin.ext (by
    match ax with
    | ⟨0, _⟩ => exact (rhsA_0 _ _).trans ha
    | ⟨1, _⟩ => exact rhsA_1 _ _)
  rw [el, er]

/-! ### The contraction `[256,4096] x [4096,64]` -/

/-- The left operand's row coordinate is the output's row. -/
theorem lhsB_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
/-- The left operand's column coordinate is the contraction index. -/
theorem lhsB_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
/-- The right operand's row coordinate is the contraction index. -/
theorem rhsB_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
/-- The right operand's column coordinate is the output's column. -/
theorem rhsB_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- The product accumulated into zero, read at row `p` and column `c`: the sum over the 4096 contraction indices of
    the left operand's row `p` times the right operand's column `c`. -/
theorem matmulB_apply {φ₁ φ₂ : FTy} (l : FVec Ideal S256x4096 φ₁) (r : FVec Ideal S4096x64 φ₂) (p : Fin 256) (c : Fin 64) :
    matmul dot_S256x4096_S4096x64_S256x64_1_0_0_1_n_n none l r (constant (F := Ideal) S256x64 .f32 0x00000000#32) (ix2 p c)
      = ∑ a : Fin 4096, l (ix2 p a) * r (ix2 a c) := by
  show FloatOps.matmul dot_S256x4096_S4096x64_S256x64_1_0_0_1_n_n none l r (constant (F := Ideal) S256x64 .f32 0x00000000#32) (ix2 p c) = _
  rw [Ideal.matmul_constant_zero_apply, ← Equiv.sum_comp (ValueIdx.contrEquiv1 dot_S256x4096_S4096x64_S256x64_1_0_0_1_n_n 4096 rfl rfl).symm]
  refine Finset.sum_congr rfl fun a _ => ?_
  have ha := ValueIdx.contrEquiv1_symm_val dot_S256x4096_S4096x64_S256x64_1_0_0_1_n_n 4096 rfl rfl a
  have el : dot_S256x4096_S4096x64_S256x64_1_0_0_1_n_n.lhsIdx (ix2 p c) ((ValueIdx.contrEquiv1 dot_S256x4096_S4096x64_S256x64_1_0_0_1_n_n 4096 rfl rfl).symm a) = ix2 p a := funext fun ax => Fin.ext (by
    match ax with
    | ⟨0, _⟩ => exact lhsB_0 _ _
    | ⟨1, _⟩ => exact (lhsB_1 _ _).trans ha)
  have er : dot_S256x4096_S4096x64_S256x64_1_0_0_1_n_n.rhsIdx (ix2 p c) ((ValueIdx.contrEquiv1 dot_S256x4096_S4096x64_S256x64_1_0_0_1_n_n 4096 rfl rfl).symm a) = ix2 a c := funext fun ax => Fin.ext (by
    match ax with
    | ⟨0, _⟩ => exact (rhsB_0 _ _).trans ha
    | ⟨1, _⟩ => exact rhsB_1 _ _)
  rw [el, er]

/-! ### The contraction `[8192,64] x [64,32]` -/

/-- The left operand's row coordinate is the output's row. -/
theorem lhsC_0 (i : S8192x32.Idx) (q : dot_S8192x64_S64x32_S8192x32_1_0_0_1_n_n.contr.Idx) :
    (dot_S8192x64_S64x32_S8192x32_1_0_0_1_n_n.lhsIdx i q 0).val = (i 0).val := by
  unfold DotDims.lhsIdx
  rw [dif_neg (show ¬(0 : Fin S8192x64.rank) ∈ dot_S8192x64_S64x32_S8192x32_1_0_0_1_n_n.lhsBatch by decide), dif_pos (show (0 : Fin S8192x64.rank) ∈ dot_S8192x64_S64x32_S8192x32_1_0_0_1_n_n.lhsNonContracting by decide)]
  rfl
/-- The left operand's column coordinate is the contraction index. -/
theorem lhsC_1 (i : S8192x32.Idx) (q : dot_S8192x64_S64x32_S8192x32_1_0_0_1_n_n.contr.Idx) :
    (dot_S8192x64_S64x32_S8192x32_1_0_0_1_n_n.lhsIdx i q 1).val = (q ⟨0, by decide⟩).val :=
  dot_S8192x64_S64x32_S8192x32_1_0_0_1_n_n.lhsIdx_val_of_single rfl i q
/-- The right operand's row coordinate is the contraction index. -/
theorem rhsC_0 (i : S8192x32.Idx) (q : dot_S8192x64_S64x32_S8192x32_1_0_0_1_n_n.contr.Idx) :
    (dot_S8192x64_S64x32_S8192x32_1_0_0_1_n_n.rhsIdx i q 0).val = (q ⟨0, by decide⟩).val :=
  dot_S8192x64_S64x32_S8192x32_1_0_0_1_n_n.rhsIdx_val_of_single rfl i q
/-- The right operand's column coordinate is the output's column. -/
theorem rhsC_1 (i : S8192x32.Idx) (q : dot_S8192x64_S64x32_S8192x32_1_0_0_1_n_n.contr.Idx) :
    (dot_S8192x64_S64x32_S8192x32_1_0_0_1_n_n.rhsIdx i q 1).val = (i 1).val := by
  unfold DotDims.rhsIdx
  rw [dif_neg (show ¬(1 : Fin S64x32.rank) ∈ dot_S8192x64_S64x32_S8192x32_1_0_0_1_n_n.rhsBatch by decide), dif_pos (show (1 : Fin S64x32.rank) ∈ dot_S8192x64_S64x32_S8192x32_1_0_0_1_n_n.rhsNonContracting by decide)]
  rfl

/-- The product accumulated into zero, read at row `p` and column `c`: the sum over the 64 contraction indices of
    the left operand's row `p` times the right operand's column `c`. -/
theorem matmulC_apply {φ₁ φ₂ : FTy} (l : FVec Ideal S8192x64 φ₁) (r : FVec Ideal S64x32 φ₂) (p : Fin 8192) (c : Fin 32) :
    matmul dot_S8192x64_S64x32_S8192x32_1_0_0_1_n_n none l r (constant (F := Ideal) S8192x32 .f32 0x00000000#32) (ix2 p c)
      = ∑ a : Fin 64, l (ix2 p a) * r (ix2 a c) := by
  show FloatOps.matmul dot_S8192x64_S64x32_S8192x32_1_0_0_1_n_n none l r (constant (F := Ideal) S8192x32 .f32 0x00000000#32) (ix2 p c) = _
  rw [Ideal.matmul_constant_zero_apply, ← Equiv.sum_comp (ValueIdx.contrEquiv1 dot_S8192x64_S64x32_S8192x32_1_0_0_1_n_n 64 rfl rfl).symm]
  refine Finset.sum_congr rfl fun a _ => ?_
  have ha := ValueIdx.contrEquiv1_symm_val dot_S8192x64_S64x32_S8192x32_1_0_0_1_n_n 64 rfl rfl a
  have el : dot_S8192x64_S64x32_S8192x32_1_0_0_1_n_n.lhsIdx (ix2 p c) ((ValueIdx.contrEquiv1 dot_S8192x64_S64x32_S8192x32_1_0_0_1_n_n 64 rfl rfl).symm a) = ix2 p a := funext fun ax => Fin.ext (by
    match ax with
    | ⟨0, _⟩ => exact lhsC_0 _ _
    | ⟨1, _⟩ => exact (lhsC_1 _ _).trans ha)
  have er : dot_S8192x64_S64x32_S8192x32_1_0_0_1_n_n.rhsIdx (ix2 p c) ((ValueIdx.contrEquiv1 dot_S8192x64_S64x32_S8192x32_1_0_0_1_n_n 64 rfl rfl).symm a) = ix2 a c := funext fun ax => Fin.ext (by
    match ax with
    | ⟨0, _⟩ => exact (rhsC_0 _ _).trans ha
    | ⟨1, _⟩ => exact rhsC_1 _ _)
  rw [el, er]

/-! ### The contraction `[256,4096] x [4096,32]` -/

/-- The left operand's row coordinate is the output's row. -/
theorem lhsD_0 (i : S256x32.Idx) (q : dot_S256x4096_S4096x32_S256x32_1_0_0_1_n_n.contr.Idx) :
    (dot_S256x4096_S4096x32_S256x32_1_0_0_1_n_n.lhsIdx i q 0).val = (i 0).val := by
  unfold DotDims.lhsIdx
  rw [dif_neg (show ¬(0 : Fin S256x4096.rank) ∈ dot_S256x4096_S4096x32_S256x32_1_0_0_1_n_n.lhsBatch by decide), dif_pos (show (0 : Fin S256x4096.rank) ∈ dot_S256x4096_S4096x32_S256x32_1_0_0_1_n_n.lhsNonContracting by decide)]
  rfl
/-- The left operand's column coordinate is the contraction index. -/
theorem lhsD_1 (i : S256x32.Idx) (q : dot_S256x4096_S4096x32_S256x32_1_0_0_1_n_n.contr.Idx) :
    (dot_S256x4096_S4096x32_S256x32_1_0_0_1_n_n.lhsIdx i q 1).val = (q ⟨0, by decide⟩).val :=
  dot_S256x4096_S4096x32_S256x32_1_0_0_1_n_n.lhsIdx_val_of_single rfl i q
/-- The right operand's row coordinate is the contraction index. -/
theorem rhsD_0 (i : S256x32.Idx) (q : dot_S256x4096_S4096x32_S256x32_1_0_0_1_n_n.contr.Idx) :
    (dot_S256x4096_S4096x32_S256x32_1_0_0_1_n_n.rhsIdx i q 0).val = (q ⟨0, by decide⟩).val :=
  dot_S256x4096_S4096x32_S256x32_1_0_0_1_n_n.rhsIdx_val_of_single rfl i q
/-- The right operand's column coordinate is the output's column. -/
theorem rhsD_1 (i : S256x32.Idx) (q : dot_S256x4096_S4096x32_S256x32_1_0_0_1_n_n.contr.Idx) :
    (dot_S256x4096_S4096x32_S256x32_1_0_0_1_n_n.rhsIdx i q 1).val = (i 1).val := by
  unfold DotDims.rhsIdx
  rw [dif_neg (show ¬(1 : Fin S4096x32.rank) ∈ dot_S256x4096_S4096x32_S256x32_1_0_0_1_n_n.rhsBatch by decide), dif_pos (show (1 : Fin S4096x32.rank) ∈ dot_S256x4096_S4096x32_S256x32_1_0_0_1_n_n.rhsNonContracting by decide)]
  rfl

/-- The product accumulated into zero, read at row `p` and column `c`: the sum over the 4096 contraction indices of
    the left operand's row `p` times the right operand's column `c`. -/
theorem matmulD_apply {φ₁ φ₂ : FTy} (l : FVec Ideal S256x4096 φ₁) (r : FVec Ideal S4096x32 φ₂) (p : Fin 256) (c : Fin 32) :
    matmul dot_S256x4096_S4096x32_S256x32_1_0_0_1_n_n none l r (constant (F := Ideal) S256x32 .f32 0x00000000#32) (ix2 p c)
      = ∑ a : Fin 4096, l (ix2 p a) * r (ix2 a c) := by
  show FloatOps.matmul dot_S256x4096_S4096x32_S256x32_1_0_0_1_n_n none l r (constant (F := Ideal) S256x32 .f32 0x00000000#32) (ix2 p c) = _
  rw [Ideal.matmul_constant_zero_apply, ← Equiv.sum_comp (ValueIdx.contrEquiv1 dot_S256x4096_S4096x32_S256x32_1_0_0_1_n_n 4096 rfl rfl).symm]
  refine Finset.sum_congr rfl fun a _ => ?_
  have ha := ValueIdx.contrEquiv1_symm_val dot_S256x4096_S4096x32_S256x32_1_0_0_1_n_n 4096 rfl rfl a
  have el : dot_S256x4096_S4096x32_S256x32_1_0_0_1_n_n.lhsIdx (ix2 p c) ((ValueIdx.contrEquiv1 dot_S256x4096_S4096x32_S256x32_1_0_0_1_n_n 4096 rfl rfl).symm a) = ix2 p a := funext fun ax => Fin.ext (by
    match ax with
    | ⟨0, _⟩ => exact lhsD_0 _ _
    | ⟨1, _⟩ => exact (lhsD_1 _ _).trans ha)
  have er : dot_S256x4096_S4096x32_S256x32_1_0_0_1_n_n.rhsIdx (ix2 p c) ((ValueIdx.contrEquiv1 dot_S256x4096_S4096x32_S256x32_1_0_0_1_n_n 4096 rfl rfl).symm a) = ix2 a c := funext fun ax => Fin.ext (by
    match ax with
    | ⟨0, _⟩ => exact (rhsD_0 _ _).trans ha
    | ⟨1, _⟩ => exact rhsD_1 _ _)
  rw [el, er]

/-! ## The bias row, cast to its own shape and broadcast over the rows -/

/-- The [1,64] bias row, cast to its own shape and broadcast to [256,64], reads the row at the column. -/
theorem bias64_apply (v12 : FVec Ideal S1x64 .f32) (r : Fin 256) (j : Fin 64) :
    broadcastTo S256x64 (shapeCast S1x64 v12 shapeCasts_S1x64_S1x64) broadcasts_S1x64_S256x64 (ix2 r j)
      = v12 (ix2 (0 : Fin 1) j) := by
  rw [shapeCast_self]
  exact broadcastTo_1b_ab_apply v12 broadcasts_S1x64_S256x64 r j

/-- The [1,32] bias row, cast to its own shape and broadcast to [256,32], reads the row at the column. -/
theorem bias32_apply (v12 : FVec Ideal S1x32 .f32) (r : Fin 256) (j : Fin 32) :
    broadcastTo S256x32 (shapeCast S1x32 v12 shapeCasts_S1x32_S1x32) broadcasts_S1x32_S256x32 (ix2 r j)
      = v12 (ix2 (0 : Fin 1) j) := by
  rw [shapeCast_self]
  exact broadcastTo_1b_ab_apply v12 broadcasts_S1x32_S256x32 r j

/-! ## The payloads -/

/-- The first body's stored product: row `k` of the input against column `j` of the first weights. -/
theorem k0_pay1_apply (v19 : Vec Ideal S8192x128 .f32) (v20 : Vec Ideal S128x64 .f32) (k : Fin 8192) (j : Fin 64) :
    k0_pay1 (F := Ideal) v19 v20 (ix2 k j) = ∑ a : Fin 128, v19 (ix2 k a) * v20 (ix2 a j) := by
  unfold k0_pay1
  refine (congrFun (shapeCast_self _ shapeCasts_S8192x64_S8192x64) (ix2 k j)).trans ?_
  exact matmulA_apply (φ₁ := .f32) (φ₂ := .f32) v19 v20 k j

/-- The first body's block of the hidden layer: the two half contractions, plus the bias, clamped below at zero. -/
theorem k0_pay2_apply (v3 : Vec Ideal S256x4096 .f32) (v5 : Vec Ideal S4096x64 .bf16) (v7 : Vec Ideal S256x4096 .f32)
    (v9 : Vec Ideal S4096x64 .bf16) (v12 : Vec Ideal S1x64 .f32) (r : Fin 256) (j : Fin 64) :
    k0_pay2 (F := Ideal) v3 v5 v7 v9 v12 (ix2 r j)
      = max (((∑ k : Fin 4096, v3 (ix2 r k) * v5 (ix2 k j)) + (∑ k : Fin 4096, v7 (ix2 r k) * v9 (ix2 k j)))
          + v12 (ix2 (0 : Fin 1) j)) 0 := by
  unfold k0_pay2
  show max ((matmul dot_S256x4096_S4096x64_S256x64_1_0_0_1_n_n none (truncf .bf16 v3 bitsLt_bf16_f32) v5 (constant (F := Ideal) S256x64 .f32 0x00000000#32) (ix2 r j)
        + matmul dot_S256x4096_S4096x64_S256x64_1_0_0_1_n_n none (truncf .bf16 v7 bitsLt_bf16_f32) v9 (constant (F := Ideal) S256x64 .f32 0x00000000#32) (ix2 r j))
      + broadcastTo S256x64 (shapeCast S1x64 v12 shapeCasts_S1x64_S1x64) broadcasts_S1x64_S256x64 (ix2 r j))
      (Ideal.ofBits .f32 0x00000000#32) = _
  rw [matmulB_apply, matmulB_apply, bias64_apply, Ideal.ofBits_zero_f32]
  rfl

/-- The second body's stored product: row `k` of the hidden layer against column `j` of the second weights. -/
theorem k1_pay1_apply (v17 : Vec Ideal S8192x64 .f32) (v19 : Vec Ideal S64x32 .f32) (k : Fin 8192) (j : Fin 32) :
    k1_pay1 (F := Ideal) v17 v19 (ix2 k j) = ∑ a : Fin 64, v17 (ix2 k a) * v19 (ix2 a j) := by
  unfold k1_pay1
  refine (congrFun (shapeCast_self _ shapeCasts_S8192x32_S8192x32) (ix2 k j)).trans ?_
  show matmul (φ₁ := .f32) (φ₂ := .f32) dot_S8192x64_S64x32_S8192x32_1_0_0_1_n_n none (shapeCast S8192x64 v17 shapeCasts_S8192x64_S8192x64) v19 (constant (F := Ideal) S8192x32 .f32 0x00000000#32) (ix2 k j) = _
  rw [shapeCast_self]
  exact matmulC_apply (φ₁ := .f32) (φ₂ := .f32) v17 v19 k j

/-- The second body's block of the output layer: the two half contractions, plus the bias. -/
theorem k1_pay2_apply (v3 : Vec Ideal S256x4096 .f32) (v5 : Vec Ideal S4096x32 .bf16) (v7 : Vec Ideal S256x4096 .f32)
    (v9 : Vec Ideal S4096x32 .bf16) (v12 : Vec Ideal S1x32 .f32) (r : Fin 256) (j : Fin 32) :
    k1_pay2 (F := Ideal) v3 v5 v7 v9 v12 (ix2 r j)
      = ((∑ k : Fin 4096, v3 (ix2 r k) * v5 (ix2 k j)) + (∑ k : Fin 4096, v7 (ix2 r k) * v9 (ix2 k j)))
          + v12 (ix2 (0 : Fin 1) j) := by
  unfold k1_pay2
  show (matmul dot_S256x4096_S4096x32_S256x32_1_0_0_1_n_n none (truncf .bf16 v3 bitsLt_bf16_f32) v5 (constant (F := Ideal) S256x32 .f32 0x00000000#32) (ix2 r j)
        + matmul dot_S256x4096_S4096x32_S256x32_1_0_0_1_n_n none (truncf .bf16 v7 bitsLt_bf16_f32) v9 (constant (F := Ideal) S256x32 .f32 0x00000000#32) (ix2 r j))
      + broadcastTo S256x32 (shapeCast S1x32 v12 shapeCasts_S1x32_S1x32) broadcasts_S1x32_S256x32 (ix2 r j) = _
  rw [matmulD_apply, matmulD_apply, bias32_apply]
  rfl

end Cert.KernelIdeal.Pay

end
-- ==== Proof.IdealV0.lean ====
/- The first region's output array after its 32 write-backs is the hidden layer of the region-entry contents.

   The region runs at 32 grid points. At point t its body leaves in the output window's buffer the block
     max ((sum over k < 4096 of L[r,k] * S[k,j]) + (sum over k < 4096 of R[r,k] * S[4096+k,j]) + b[0,j], 0),
   where L and R are the point's two [256,4096] column-half blocks of the dense matrix FN (rows 256 t .. 256 t + 255,
   columns 0..4095 and 4096..8191), b the bias row, and S the scratch, which holds the projection
   S[k,j] = sum over a < 128 of x[k,a] * W1[a,j] of the whole source by the whole weights. A block's element sits in its
   array at block index times block size plus its coordinate inside the block, so L[r,k] = FN[256 t + r, k] and
   R[r,k] = FN[256 t + r, 4096 + k]; the two half sums add up to the sum over all 8192 columns. Hence the block written
   back at point t is block t of one function of the arrays, the hidden layer
     H[i,j] = max ((sum over k < 8192 of FN[i,k] * S[k,j]) + b[0,j], 0),
   and since every row i lies in the block of point i / 256, the array ends holding H. -/
import proofs.«181717_g4698694221856_cont_8to1c4_439_7_alg».proof.Proof.IdealR0
import proofs.«181717_g4698694221856_cont_8to1c4_439_7_alg».proof.Proof.Payload
import proofs.«181717_g4698694221856_cont_8to1c4_439_7_alg».proof.Proof.Spec
import Idealize.ShloMosaic.Lib.Pipeline.Value
import Idealize.ShloMosaic.Lib.ValueIdx
import Idealize.ShloMosaic.PureOps.Ideal.Laws

noncomputable section

namespace Cert.KernelIdeal.V0

open Cert.KernelIdeal Cert.KernelIdeal.Gen Cert.KernelIdeal.R0
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays and the blocks, by their literal types -/

/-- The zero offsets, as the constant function. -/
theorem hz : (![0, 0] : Fin 2 → Nat) = fun _ => 0 := funext fun a => by fin_cases a <;> rfl

/-- The dense matrix, as the region finds it. -/
abbrev aFN (c : Dev nD) : S8192x8192.Idx → EReal := V c main_arg2
/-- The source matrix. -/
abbrev aX (c : Dev nD) : S8192x128.Idx → EReal := V c main_arg0
/-- The weights. -/
abbrev aW (c : Dev nD) : S128x64.Idx → EReal := V c main_arg3
/-- The bias row. -/
abbrev aB (c : Dev nD) : S1x64.Idx → EReal := V c main_v0

/-- The left column-half block of the dense matrix at point `t`. -/
abbrev blkL (c : Dev nD) (t : Fin cfg0.N) : S256x4096.Idx → EReal := iblk V c 0 t
/-- The right column-half block of the dense matrix at point `t`. -/
abbrev blkR (c : Dev nD) (t : Fin cfg0.N) : S256x4096.Idx → EReal := iblk V c 1 t
/-- The source window's one block. -/
abbrev blkX (c : Dev nD) (t : Fin cfg0.N) : S8192x128.Idx → EReal := iblk V c 2 t
/-- The weight window's one block. -/
abbrev blkW (c : Dev nD) (t : Fin cfg0.N) : S128x64.Idx → EReal := iblk V c 3 t
/-- The bias window's one block. -/
abbrev blkB (c : Dev nD) (t : Fin cfg0.N) : S1x64.Idx → EReal := iblk V c 4 t

/-- The grid has 32 points. -/
theorem tlt (t : Fin cfg0.N) : t.val < 32 := lt_of_lt_of_eq t.isLt N_0

/-- Row `r` of point `t`'s 256-row block, as a row of the array. -/
abbrev rowOf (t : Fin cfg0.N) (r : Fin 256) : Fin 8192 := ⟨256 * t.val + r.val, by have := tlt t; omega⟩
/-- Column (or scratch row) `k` of the lower half. -/
abbrev lo (k : Fin 4096) : Fin 8192 := ⟨k.val, by omega⟩
/-- Column (or scratch row) `k` of the upper half. -/
abbrev hi (k : Fin 4096) : Fin 8192 := ⟨4096 + k.val, by omega⟩

/-! ## The index maps, decided over the grid -/

/-- The two windows on the dense matrix and the output window move down one block row per point, the first at block
    column 0 and the second at block column 1; the three whole-array windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks read off their arrays -/

/-- The left block's element `(r, k)` is the dense matrix at row `256 t + r`, column `k`. -/
theorem blkL_apply (c : Dev nD) (t : Fin cfg0.N) (r : Fin 256) (k : Fin 4096) :
    blkL V c t (ix2 r k) = aFN V c (ix2 (rowOf t r) (lo k)) := by
  obtain ⟨e0, e1, -⟩ := idx_facts t
  unfold blkL iblk
  rw [View.read_apply]
  show V c main_arg2 _ = V c main_arg2 _
  congr 1
  funext a
  apply Fin.ext
  match a with
  | ⟨0, _⟩ => show win0_0.index t (0 : Fin 2) * 256 + 1 * r.val = 256 * t.val + r.val; rw [e0]; omega
  | ⟨1, _⟩ => show win0_0.index t (1 : Fin 2) * 4096 + 1 * k.val = k.val; rw [e1]; omega

/-- The right block's element `(r, k)` is the dense matrix at row `256 t + r`, column `4096 + k`. -/
theorem blkR_apply (c : Dev nD) (t : Fin cfg0.N) (r : Fin 256) (k : Fin 4096) :
    blkR V c t (ix2 r k) = aFN V c (ix2 (rowOf t r) (hi k)) := by
  obtain ⟨-, -, e2, e3, -⟩ := idx_facts t
  unfold blkR iblk
  rw [View.read_apply]
  show V c main_arg2 _ = V c main_arg2 _
  congr 1
  funext a
  apply Fin.ext
  match a with
  | ⟨0, _⟩ => show win0_1.index t (0 : Fin 2) * 256 + 1 * r.val = 256 * t.val + r.val; rw [e2]; omega
  | ⟨1, _⟩ => show win0_1.index t (1 : Fin 2) * 4096 + 1 * k.val = 4096 + k.val; rw [e3]; omega

/-- The source window's one block is the source matrix. -/
theorem blkX_eq (c : Dev nD) (t : Fin cfg0.N) : blkX V c t = aX V c := by
  obtain ⟨-, -, -, -, e4, e5, -⟩ := idx_facts t
  funext j
  unfold blkX iblk
  rw [View.read_apply]
  show V c main_arg0 _ = V c main_arg0 _
  congr 1
  funext a
  apply Fin.ext
  match a with
  | ⟨0, _⟩ => show win0_2.index t (0 : Fin 2) * 8192 + 1 * (j 0).val = (j 0).val; rw [e4]; omega
  | ⟨1, _⟩ => show win0_2.index t (1 : Fin 2) * 128 + 1 * (j 1).val = (j 1).val; rw [e5]; omega

/-- The weight window's one block is the weights. -/
theorem blkW_eq (c : Dev nD) (t : Fin cfg0.N) : blkW V c t = aW V c := by
  obtain ⟨-, -, -, -, -, -, e6, e7, -⟩ := idx_facts t
  funext j
  unfold blkW iblk
  rw [View.read_apply]
  show V c main_arg3 _ = V c main_arg3 _
  congr 1
  funext a
  apply Fin.ext
  match a with
  | ⟨0, _⟩ => show win0_3.index t (0 : Fin 2) * 128 + 1 * (j 0).val = (j 0).val; rw [e6]; omega
  | ⟨1, _⟩ => show win0_3.index t (1 : Fin 2) * 64 + 1 * (j 1).val = (j 1).val; rw [e7]; omega

/-- The bias window's one block is the bias row. -/
theorem blkB_eq (c : Dev nD) (t : Fin cfg0.N) : blkB V c t = aB V c := by
  obtain ⟨-, -, -, -, -, -, -, -, e8, e9, -⟩ := idx_facts t
  funext j
  unfold blkB iblk
  rw [View.read_apply]
  show V c main_v0 _ = V c main_v0 _
  congr 1
  funext a
  apply Fin.ext
  match a with
  | ⟨0, _⟩ => show win0_4.index t (0 : Fin 2) * 1 + 1 * (j 0).val = (j 0).val; rw [e8]; omega
  | ⟨1, _⟩ => show win0_4.index t (1 : Fin 2) * 64 + 1 * (j 1).val = (j 1).val; rw [e9]; omega

/-! ## The scratch: the projection -/

/-- The projection of the source by the weights. -/
abbrev P1 (c : Dev nD) : S8192x64.Idx → EReal := Cert.Spec.proj1 (aX V c) (aW V c)

/-- What the scratch holds is the projection. -/
theorem scrAt_apply (c : Dev nD) (k : Fin 8192) (j : Fin 64) : scrAt V c (ix2 k j) = P1 V c (ix2 k j) := by
  unfold scrAt scr
  rw [View.canon_unit_zero hz]
  simp only [View.ld_unit_zero (S := S8192x128) hz, View.ld_unit_zero (S := S128x64) hz]
  refine (Pay.k0_pay1_apply (blkX V c t0) (blkW V c t0) k j).trans ?_
  rw [blkX_eq, blkW_eq]
  rfl

/-- A scratch row of the lower half, through the lower half's rectangle. -/
theorem rLo_idx (k : Fin 4096) (j : Fin 64) : rLo.idx (ix2 k j) = ix2 (lo k) j := by
  funext a
  apply Fin.ext
  match a with
  | ⟨0, _⟩ => show 0 + 1 * k.val = k.val; omega
  | ⟨1, _⟩ => show 0 + 1 * j.val = j.val; omega

/-- A scratch row of the upper half, through the upper half's rectangle. -/
theorem rHi_idx (k : Fin 4096) (j : Fin 64) : rHi.idx (ix2 k j) = ix2 (hi k) j := by
  funext a
  apply Fin.ext
  match a with
  | ⟨0, _⟩ => show 4096 + 1 * k.val = 4096 + k.val; omega
  | ⟨1, _⟩ => show 0 + 1 * j.val = j.val; omega

/-! ## The block the body leaves at a point -/

/-- The output block at point `t`, element `(r, j)`: the two half contractions of row `256 t + r` of the dense matrix
    against column `j` of the projection, plus the bias, clamped below at zero. -/
theorem outAt_apply (c : Dev nD) (t : Fin cfg0.N) (r : Fin 256) (j : Fin 64) :
    outAt V c t (ix2 r j)
      = max (((∑ k : Fin 4096, aFN V c (ix2 (rowOf t r) (lo k)) * P1 V c (ix2 (lo k) j))
            + (∑ k : Fin 4096, aFN V c (ix2 (rowOf t r) (hi k)) * P1 V c (ix2 (hi k) j)))
          + aB V c (ix2 (0 : Fin 1) j)) 0 := by
  unfold outAt outO
  rw [View.canon_unit_zero hz]
  simp only [View.ld_unit_zero (S := S256x4096) hz, View.ld_unit_zero (S := S1x64) hz]
  refine (Pay.k0_pay2_apply (blkL V c t) (View.ld (scrAt V c) rLo) (blkR V c t) (View.ld (scrAt V c) rHi) (blkB V c t) r j).trans ?_
  have hL : ∀ k : Fin 4096, blkL V c t (ix2 r k) * View.ld (scrAt V c) rLo (ix2 k j)
      = aFN V c (ix2 (rowOf t r) (lo k)) * P1 V c (ix2 (lo k) j) := fun k => by
    rw [blkL_apply]
    show _ * scrAt V c (rLo.idx (ix2 k j)) = _
    rw [rLo_idx, scrAt_apply]
  have hR : ∀ k : Fin 4096, blkR V c t (ix2 r k) * View.ld (scrAt V c) rHi (ix2 k j)
      = aFN V c (ix2 (rowOf t r) (hi k)) * P1 V c (ix2 (hi k) j) := fun k => by
    rw [blkR_apply]
    show _ * scrAt V c (rHi.idx (ix2 k j)) = _
    rw [rHi_idx, scrAt_apply]
  rw [Finset.sum_congr rfl fun k _ => hL k, Finset.sum_congr rfl fun k _ => hR k, blkB_eq]

/-! ## The hidden layer, and the block written back -/

/-- The hidden layer of the region-entry contents. -/
abbrev G (c : Dev nD) : S8192x64.Idx → EReal :=
  Cert.Spec.hidden (V c main_arg0) (V c main_arg2) (V c main_arg3) (fun i => V c main_v0 (ix2 (0 : Fin 1) (i 0)))

/-- The hidden layer at `(R, j)` with its contraction split into the two halves of the columns. -/
theorem G_apply (c : Dev nD) (R : Fin 8192) (j : Fin 64) :
    G V c (ix2 R j)
      = max (((∑ k : Fin 4096, aFN V c (ix2 R (lo k)) * P1 V c (ix2 (lo k) j))
            + (∑ k : Fin 4096, aFN V c (ix2 R (hi k)) * P1 V c (ix2 (hi k) j)))
          + aB V c (ix2 (0 : Fin 1) j)) 0 := by
  show max ((∑ k : Fin 8192, aFN V c (ix2 R k) * P1 V c (ix2 k j)) + aB V c (ix2 (0 : Fin 1) j)) 0 = _
  rw [← Cert.Spec.sum_halves (fun k : Fin 8192 => aFN V c (ix2 R k) * P1 V c (ix2 k j))]

/-- An element of the output window's block at point `t` sits at row `256 t + r` of the array. -/
theorem emb_out (t : Fin cfg0.N) (r : Fin 256) (j : Fin 64) :
    (((cfg0.win 5).blk t).view.emb (ix2 r j) : S8192x64.Idx) = ix2 (rowOf t r) j := by
  obtain ⟨-, -, -, -, -, -, -, -, -, -, e10, e11⟩ := idx_facts t
  funext a
  apply Fin.ext
  match a with
  | ⟨0, _⟩ => show win0_5.index t (0 : Fin 2) * 256 + 1 * r.val = 256 * t.val + r.val; rw [e10]; omega
  | ⟨1, _⟩ => show win0_5.index t (1 : Fin 2) * 64 + 1 * j.val = j.val; rw [e11]; omega

/-- What point `t` writes back is block `t` of the hidden layer. -/
theorem flushed_eq (c : Dev nD) (t : Fin cfg0.N) :
    (dat V c).flushed 5 t = ((cfg0.win 5).blk t).view.read (Elt Ideal) (G V c) := by
  show (cfg0.win 5).cut (cfg0.grid.coords t) ((dat V c).after 5 t) = _
  rw [after_5]
  refine funext fun (y : S256x64.Idx) => ?_
  obtain ⟨r, j, rfl⟩ : ∃ (r : Fin 256) (j : Fin 64), y = ix2 r j := ⟨y 0, y 1, eq_ix2 y⟩
  rw [View.read_apply]
  show outAt V c t (ix2 r j) = G V c (((cfg0.win 5).blk t).view.emb (ix2 r j))
  refine (outAt_apply V c t r j).trans ((G_apply V c (rowOf t r) j).symm.trans ?_)
  exact congrArg (G V c) (emb_out t r j).symm

/-! ## Every row is in some point's block -/

/-- An index of the array is in point `t`'s block iff each coordinate is in the block's range on its axis. -/
theorem mem_blk (t : Fin cfg0.N) (i : S8192x64.Idx) :
    i ∈ ((cfg0.win 5).blk t).view.set ↔ ∀ a : Fin 2, win0_5.index t a * S256x64.size a ≤ (i a).val ∧ (i a).val < win0_5.index t a * S256x64.size a + S256x64.size a := by
  show i ∈ ((View.whole main_v2).slice (win0_5.rect t)).set ↔ _
  rw [View.set_slice_whole, Rect.mem_set_unit]
  exact Iff.rfl

/-- Row `i` lies in the block of point `i / 256`, and every point writes back. -/
theorem cover (i : S8192x64.Idx) : ∃ t : Fin cfg0.N, (cfg0.win 5).flush t = true ∧ i ∈ ((cfg0.win 5).blk t).view.set := by
  have hi0 : (i 0).val < 8192 := (i 0).isLt
  have hi1 : (i 1).val < 64 := (i 1).isLt
  obtain ⟨t, ht⟩ : ∃ t : Fin cfg0.N, t.val = (i 0).val / 256 :=
    ⟨⟨(i 0).val / 256, lt_of_lt_of_eq (by omega) N_0.symm⟩, rfl⟩
  obtain ⟨-, -, -, -, -, -, -, -, -, -, e10, e11⟩ := idx_facts t
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; rw [e10]; omega
  | ⟨1, _⟩ => show win0_5.index t (1 : Fin 2) * 64 ≤ (i 1).val ∧ (i 1).val < win0_5.index t (1 : Fin 2) * 64 + 64; rw [e11]; omega

/-! ## The array after the region -/

/-- After the 32 write-backs the output array holds the hidden layer `max (FN (x W1) + b1, 0)` of the region-entry contents. -/
theorem final (c : Dev nD) :
    (dat (F := Ideal) V c).arrAt 5 cfg0.N
      = Cert.Spec.hidden (V c main_arg0) (V c main_arg2) (V c main_arg3) (fun i => V c main_v0 (ix2 (0 : Fin 1) (i 0))) :=
  (dat V c).arrAt_eq_of_cover 5 (G V c) (fun t _ => flushed_eq V c t) cover

end Cert.KernelIdeal.V0

end
-- ==== Proof.IdealV1.lean ====
import proofs.«181717_g4698694221856_cont_8to1c4_439_7_alg».proof.Proof.IdealR1
import proofs.«181717_g4698694221856_cont_8to1c4_439_7_alg».proof.Proof.Payload
import proofs.«181717_g4698694221856_cont_8to1c4_439_7_alg».proof.Proof.Spec
import Idealize.ShloMosaic.Lib.Pipeline.Value
import Idealize.ShloMosaic.Lib.ValueIdx
import Idealize.ShloMosaic.PureOps.Ideal.Laws

/- The second kernel region's output array after its 32 write-backs, as one function of the arrays the region is
   entered from: row `r` of the dense matrix `NF` against column `j` of the projection `h · W2`, plus the bias.

   At every grid point `t` the body stores one block of 256 rows: the left column half of the rows `256 t + r` of `NF`
   against the upper 4096 rows of the projection, plus the right column half against the lower 4096 rows, plus the
   bias row. The two half sums add up to the whole sum over the 8192 columns (`Cert.Spec.sum_halves`), so the block
   is block `t` of the whole-array function; the 32 blocks tile the 8192 rows. -/

set_option maxRecDepth 16384

noncomputable section

namespace Cert.KernelIdeal.V1

open Cert.KernelIdeal Cert.KernelIdeal.Gen Cert.KernelIdeal.R1
open Idealize.ShloMosaic Idealize.ShloMosaic.TcCoe Idealize.ShloMosaic.ValueIdx Idealize.SL.Sem
open Idealize.ShloMosaic.Pipeline (Dat)

/-- The zero offsets, however spelt. -/
theorem hz : (![0, 0] : Fin 2 → Nat) = fun _ => 0 := funext fun a => by
  match a with | ⟨0, _⟩ => rfl | ⟨1, _⟩ => rfl

/-- The printed index maps, decided over the grid: the two windows on the dense matrix and the output window move
    down the rows with the point, the right column half at block column 1; the three whole-array windows stay at 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 1
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A point is below 32. -/
theorem t_lt (t : Fin cfg1.N) : t.val < 32 := lt_of_lt_of_eq t.isLt N_1

section Region

variable (V : (c : Dev nD) → (b : Ref sig .tc) → Buf (Elt Ideal) ((c : Thread nD τ).loc b))

/-! ## The arrays and the blocks, each at its literal type -/

/-- The dense matrix `NF` as the region finds it. -/
abbrev aNF (c : Dev nD) : S8192x8192.Idx → EReal := V c main_arg1
/-- The hidden layer as the region finds it. -/
abbrev aH (c : Dev nD) : S8192x64.Idx → EReal := V c main_v2
/-- The second weights as the region finds them. -/
abbrev aW (c : Dev nD) : S64x32.Idx → EReal := V c main_arg5
/-- The bias row as the region finds it. -/
abbrev aB (c : Dev nD) : S1x32.Idx → EReal := V c main_v1

/-- The left column half of the dense matrix's row block at point `t`. -/
abbrev bL (c : Dev nD) (t : Fin cfg1.N) : S256x4096.Idx → EReal := iblk V c 0 t
/-- The right column half of the dense matrix's row block at point `t`. -/
abbrev bR (c : Dev nD) (t : Fin cfg1.N) : S256x4096.Idx → EReal := iblk V c 1 t

/-! ## The blocks read off their arrays -/

/-- The left half block at (r, k) is the dense matrix at row `256 t + r`, column `k`. -/
theorem bL_apply (c : Dev nD) (t : Fin cfg1.N) (r : Fin 256) (k : Fin 4096)
    (h0 : 256 * t.val + r.val < 8192) (h1 : k.val < 8192) :
    bL V c t (ix2 r k) = aNF V c (ix2 ⟨256 * t.val + r.val, h0⟩ ⟨k.val, h1⟩) := by
  obtain ⟨e0, e1, -⟩ := idx_facts t
  show ((cfg1.win 0).blk t).view.read (Elt Ideal) (V c (Pipeline.arrRef spec1 0)) (ix2 r k) = _
  rw [View.read_apply]
  show V c main_arg1 _ = V c main_arg1 _
  congr 1
  funext a
  apply Fin.ext
  match a with
  | ⟨0, _⟩ => show win1_0.index t (0 : Fin 2) * 256 + 1 * r.val = 256 * t.val + r.val; rw [e0]; omega
  | ⟨1, _⟩ => show win1_0.index t (1 : Fin 2) * 4096 + 1 * k.val = k.val; rw [e1]; omega

/-- The right half block at (r, k) is the dense matrix at row `256 t + r`, column `4096 + k`. -/
theorem bR_apply (c : Dev nD) (t : Fin cfg1.N) (r : Fin 256) (k : Fin 4096)
    (h0 : 256 * t.val + r.val < 8192) (h1 : 4096 + k.val < 8192) :
    bR V c t (ix2 r k) = aNF V c (ix2 ⟨256 * t.val + r.val, h0⟩ ⟨4096 + k.val, h1⟩) := by
  obtain ⟨-, -, e0, e1, -⟩ := idx_facts t
  show ((cfg1.win 1).blk t).view.read (Elt Ideal) (V c (Pipeline.arrRef spec1 1)) (ix2 r k) = _
  rw [View.read_apply]
  show V c main_arg1 _ = V c main_arg1 _
  congr 1
  funext a
  apply Fin.ext
  match a with
  | ⟨0, _⟩ => show win1_1.index t (0 : Fin 2) * 256 + 1 * r.val = 256 * t.val + r.val; rw [e0]; omega
  | ⟨1, _⟩ => show win1_1.index t (1 : Fin 2) * 4096 + 1 * k.val = 4096 + k.val; rw [e1]; omega

/-- The hidden layer's window holds its whole array at every point. -/
theorem blk2_eq (c : Dev nD) (t : Fin cfg1.N) : (iblk V c 2 t : S8192x64.Idx → EReal) = aH V c := by
  obtain ⟨-, -, -, -, e0, e1, -⟩ := idx_facts t
  funext j
  show ((cfg1.win 2).blk t).view.read (Elt Ideal) (V c (Pipeline.arrRef spec1 2)) j = _
  rw [View.read_apply]
  show V c main_v2 _ = V c main_v2 _
  congr 1
  funext a
  apply Fin.ext
  match a with
  | ⟨0, _⟩ => show win1_2.index t (0 : Fin 2) * 8192 + 1 * (j 0).val = (j 0).val; rw [e0]; omega
  | ⟨1, _⟩ => show win1_2.index t (1 : Fin 2) * 64 + 1 * (j 1).val = (j 1).val; rw [e1]; omega

/-- The second weights' window holds its whole array at every point. -/
theorem blk3_eq (c : Dev nD) (t : Fin cfg1.N) : (iblk V c 3 t : S64x32.Idx → EReal) = aW V c := by
  obtain ⟨-, -, -, -, -, -, e0, e1, -⟩ := idx_facts t
  funext j
  show ((cfg1.win 3).blk t).view.read (Elt Ideal) (V c (Pipeline.arrRef spec1 3)) j = _
  rw [View.read_apply]
  show V c main_arg5 _ = V c main_arg5 _
  congr 1
  funext a
  apply Fin.ext
  match a with
  | ⟨0, _⟩ => show win1_3.index t (0 : Fin 2) * 64 + 1 * (j 0).val = (j 0).val; rw [e0]; omega
  | ⟨1, _⟩ => show win1_3.index t (1 : Fin 2) * 32 + 1 * (j 1).val = (j 1).val; rw [e1]; omega

/-- The bias row's window holds its whole array at every point. -/
theorem blk4_eq (c : Dev nD) (t : Fin cfg1.N) : (iblk V c 4 t : S1x32.Idx → EReal) = aB V c := by
  obtain ⟨-, -, -, -, -, -, -, -, e0, e1, -⟩ := idx_facts t
  funext j
  show ((cfg1.win 4).blk t).view.read (Elt Ideal) (V c (Pipeline.arrRef spec1 4)) j = _
  rw [View.read_apply]
  show V c main_v1 _ = V c main_v1 _
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 32 + 1 * (j 1).val = (j 1).val; rw [e1]; omega

/-! ## The scratch: the projection of the hidden layer -/

/-- What the scratch holds after any point, at row `k` and column `j`: row `k` of the hidden layer against column `j`
    of the second weights. -/
theorem scrAt_apply (c : Dev nD) (k : Fin 8192) (j : Fin 32) :
    (scrAt V c : S8192x32.Idx → EReal) (ix2 k j) = Cert.Spec.proj2 (aH V c) (aW V c) (ix2 k j) := by
  unfold scrAt scr
  rw [View.canon_unit_zero hz]
  simp only [View.ld_unit_zero (S := S8192x64) hz, View.ld_unit_zero (S := S64x32) hz]
  refine (Cert.KernelIdeal.Pay.k1_pay1_apply _ _ k j).trans ?_
  rw [blk2_eq, blk3_eq]
  rfl

/-! ## The scratch's two row halves -/

/-- A load through the upper row half reads row `k`. -/
theorem ldLo_apply (xs : Vec Ideal S8192x32 .bf16) (k : Fin 4096) (j : Fin 32) (h : k.val < 8192) :
    View.ld xs rLo (ix2 k j) = xs (ix2 ⟨k.val, h⟩ j) := by
  show xs (rLo.idx (ix2 k j)) = _
  congr 1
  funext a
  apply Fin.ext
  match a with
  | ⟨0, _⟩ => show 0 + 1 * k.val = k.val; omega
  | ⟨1, _⟩ => show 0 + 1 * j.val = j.val; omega

/-- A load through the lower row half reads row `4096 + k`. -/
theorem ldHi_apply (xs : Vec Ideal S8192x32 .bf16) (k : Fin 4096) (j : Fin 32) (h : 4096 + k.val < 8192) :
    View.ld xs rHi (ix2 k j) = xs (ix2 ⟨4096 + k.val, h⟩ j) := by
  show xs (rHi.idx (ix2 k j)) = _
  congr 1
  funext a
  apply Fin.ext
  match a with
  | ⟨0, _⟩ => show 4096 + 1 * k.val = 4096 + k.val; omega
  | ⟨1, _⟩ => show 0 + 1 * j.val = j.val; omega

/-! ## What the body leaves in the output block -/

/-- The whole-array function the output ends at: the output layer over the hidden layer the region finds. -/
abbrev G5 (c : Dev nD) : S8192x32.Idx → EReal :=
  Cert.Spec.outOf (aH V c) (aNF V c) (aW V c) (fun i => aB V c (ix2 (0 : Fin 1) (i 0)))

/-- One term of the contraction over the 8192 columns of the dense matrix, at row `p` and column `j`. -/
abbrev term (c : Dev nD) (p : Fin 8192) (j : Fin 32) : Fin 8192 → EReal :=
  fun k => aNF V c (ix2 p k) * Cert.Spec.proj2 (aH V c) (aW V c) (ix2 k j)

/-- The output block the body leaves at point `t`, at (r, j), is the whole-array function at row `256 t + r`. -/
theorem outAt_apply (c : Dev nD) (t : Fin cfg1.N) (r : Fin 256) (j : Fin 32) (h0 : 256 * t.val + r.val < 8192) :
    (outAt V c t : S256x32.Idx → EReal) (ix2 r j) = G5 V c (ix2 ⟨256 * t.val + r.val, h0⟩ j) := by
  unfold outAt outO
  rw [View.canon_unit_zero hz]
  simp only [View.ld_unit_zero (S := S256x4096) hz, View.ld_unit_zero (S := S1x32) hz]
  refine (Cert.KernelIdeal.Pay.k1_pay2_apply _ _ _ _ _ r j).trans ?_
  rw [blk4_eq]
  have hLo : (∑ k : Fin 4096, bL V c t (ix2 r k) * View.ld (scrAt V c) rLo (ix2 k j))
      = ∑ k : Fin 4096, term V c ⟨256 * t.val + r.val, h0⟩ j ⟨k.val, by omega⟩ :=
    Finset.sum_congr rfl fun k _ =>
      congrArg₂ (· * ·) (bL_apply V c t r k h0 (by omega))
        ((ldLo_apply (scrAt V c) k j (by omega)).trans (scrAt_apply V c ⟨k.val, by omega⟩ j))
  have hHi : (∑ k : Fin 4096, bR V c t (ix2 r k) * View.ld (scrAt V c) rHi (ix2 k j))
      = ∑ k : Fin 4096, term V c ⟨256 * t.val + r.val, h0⟩ j ⟨4096 + k.val, by omega⟩ :=
    Finset.sum_congr rfl fun k _ =>
      congrArg₂ (· * ·) (bR_apply V c t r k h0 (by omega))
        ((ldHi_apply (scrAt V c) k j (by omega)).trans (scrAt_apply V c ⟨4096 + k.val, by omega⟩ j))
  exact (congrArg₂ (fun a b => (a + b) + aB V c (ix2 (0 : Fin 1) j)) hLo hHi).trans
    (congrArg (fun s => s + aB V c (ix2 (0 : Fin 1) j)) (Cert.Spec.sum_halves (term V c ⟨256 * t.val + r.val, h0⟩ j)))

/-! ## From the blocks to the array -/

/-- What point `t` writes back is block `t` of the whole-array function. -/
theorem flushed_eq (c : Dev nD) (t : Fin cfg1.N) :
    (dat (F := Ideal) V c).flushed 5 t = ((cfg1.win 5).blk t).view.read (Elt Ideal) (G5 V c) := by
  show (cfg1.win 5).cut (cfg1.grid.coords t) ((dat V c).after 5 t) = _
  rw [after_5]
  obtain ⟨-, -, -, -, -, -, -, -, -, -, e0, e1⟩ := idx_facts t
  have ht := t_lt t
  funext y
  show (outAt V c t : S256x32.Idx → EReal) y = G5 V c (((cfg1.win 5).blk t).view.emb y)
  have hy0 : (y 0).val < 256 := (y 0).isLt
  have hy1 : (y 1).val < 32 := (y 1).isLt
  have hrow : 256 * t.val + (y 0).val < 8192 := by omega
  refine ((congrArg (outAt V c t : S256x32.Idx → EReal) (eq_ix2 (n0 := 256) (n1 := 32) y)).trans
    (outAt_apply V c t (y 0) (y 1) hrow)).trans ?_
  congr 1
  funext a
  apply Fin.ext
  match a with
  | ⟨0, _⟩ => show 256 * t.val + (y 0).val = win1_5.index t (0 : Fin 2) * 256 + 1 * (y 0).val; rw [e0]; omega
  | ⟨1, _⟩ => show (y 1).val = win1_5.index t (1 : Fin 2) * 32 + 1 * (y 1).val; rw [e1]; omega

/-- An index of the output array is in point `t`'s block iff each coordinate is in the block's range on its axis. -/
theorem mem_blk (t : Fin cfg1.N) (i : S8192x32.Idx) :
    i ∈ ((cfg1.win 5).blk t).view.set ↔ ∀ a : Fin 2, win1_5.index t a * S256x32.size a ≤ (i a).val
      ∧ (i a).val < win1_5.index t a * S256x32.size a + S256x32.size a := by
  show i ∈ ((View.whole main_v3).slice (win1_5.rect t)).set ↔ _
  rw [View.set_slice_whole, Rect.mem_set_unit]
  exact Iff.rfl

/-- Every index of the output array lies in the block of the point its row falls in, and that point writes back. -/
theorem cover (i : S8192x32.Idx) :
    ∃ t : Fin cfg1.N, (cfg1.win 5).flush t = true ∧ i ∈ ((cfg1.win 5).blk t).view.set := by
  have hi0 : (i 0).val < 8192 := (i 0).isLt
  have hi1 : (i 1).val < 32 := (i 1).isLt
  obtain ⟨t, ht⟩ : ∃ t : Fin cfg1.N, t.val = (i 0).val / 256 :=
    ⟨⟨(i 0).val / 256, lt_of_lt_of_eq (by omega : (i 0).val / 256 < 32) N_1.symm⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 256 ≤ (i 0).val ∧ (i 0).val < win1_5.index t (0 : Fin 2) * 256 + 256
    rw [e0, ht]; omega
  | ⟨1, _⟩ =>
    show win1_5.index t (1 : Fin 2) * 32 ≤ (i 1).val ∧ (i 1).val < win1_5.index t (1 : Fin 2) * 32 + 32
    rw [e1]; omega

/-- The output array after the 32 write-backs: the output layer over the hidden layer, the dense matrix, the second
    weights and the bias row the region is entered from. -/
theorem final (c : Dev nD) :
    (Cert.KernelIdeal.R1.dat (F := Ideal) V c).arrAt 5 cfg1.N
      = Cert.Spec.outOf (V c main_v2) (V c main_arg1) (V c main_arg5) (fun i => V c main_v1 (ValueIdx.ix2 (0 : Fin 1) (i 0))) :=
  (dat (F := Ideal) V c).arrAt_eq_of_cover 5 (G5 V c) (fun t _ => flushed_eq V c t) cover

end Region

end Cert.KernelIdeal.V1

end
-- ==== Proof.IdealHost.lean ====
/- The two bias rows the regions read are the bias vectors.

   Before the first region the program reshapes the two bias vectors, of 64 and of 32 entries, to one-row matrices
   [1,64] and [1,32]; no other host operation runs before the regions. A reshape keeps the row-major order, so entry
   (0, j) of a reshaped row is entry j of the vector. -/
import proofs.«181717_g4698694221856_cont_8to1c4_439_7_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- After the host operations the first bias row is the reshaped first bias vector. -/
theorem v0_eq (c : Dev nD) :
    (Gen.V1 m c main_v0 : S1x64.Idx → Elt F .f32)
      = shapeCast S1x64 (m ((c.tc : Thread nD τ).loc main_arg4) : S64.Idx → Elt F .f32) shapeCasts_S64_S1x64 := by
  dsimp only [Gen.V1, Gen.V0, Gen.hostOps0]
  after_results
  rfl

/-- After the host operations the second bias row is the reshaped second bias vector. -/
theorem v1_eq (c : Dev nD) :
    (Gen.V1 m c main_v1 : S1x32.Idx → Elt F .f32)
      = shapeCast S1x32 (m ((c.tc : Thread nD τ).loc main_arg6) : S32.Idx → Elt F .f32) shapeCasts_S32_S1x32 := by
  dsimp only [Gen.V1, Gen.V0, Gen.hostOps0]
  after_results
  rfl

/-- Entry `(0, j)` of the first bias row is entry `j` of the first bias vector. -/
theorem v0_apply (c : Dev nD) (j : Fin 64) :
    (Gen.V1 m c main_v0 : S1x64.Idx → Elt F .f32) (ix2 (0 : Fin 1) j)
      = (m ((c.tc : Thread nD τ).loc main_arg4) : S64.Idx → Elt F .f32) (ix1 j) := by
  rw [v0_eq]
  exact shapeCast_a_1a_apply _ shapeCasts_S64_S1x64 (0 : Fin 1) j

/-- Entry `(0, j)` of the second bias row is entry `j` of the second bias vector. -/
theorem v1_apply (c : Dev nD) (j : Fin 32) :
    (Gen.V1 m c main_v1 : S1x32.Idx → Elt F .f32) (ix2 (0 : Fin 1) j)
      = (m ((c.tc : Thread nD τ).loc main_arg6) : S32.Idx → Elt F .f32) (ix1 j) := by
  rw [v1_eq]
  exact shapeCast_a_1a_apply _ shapeCasts_S32_S1x32 (0 : Fin 1) j

/-- The first bias row read along its one row is the first bias vector. -/
theorem b1_eq (c : Dev nD) :
    (fun i : S64.Idx => (Gen.V1 m c main_v0 : S1x64.Idx → Elt F .f32) (ix2 (0 : Fin 1) (i 0)))
      = m ((c.tc : Thread nD τ).loc main_arg4) := by
  funext i
  exact (v0_apply m c (i 0)).trans (congrArg (m ((c.tc : Thread nD τ).loc main_arg4) : S64.Idx → Elt F .f32) (eq_ix1 i).symm)

/-- The second bias row read along its one row is the second bias vector. -/
theorem b2_eq (c : Dev nD) :
    (fun i : S32.Idx => (Gen.V1 m c main_v1 : S1x32.Idx → Elt F .f32) (ix2 (0 : Fin 1) (i 0)))
      = m ((c.tc : Thread nD τ).loc main_arg6) := by
  funext i
  exact (v1_apply m c (i 0)).trans (congrArg (m ((c.tc : Thread nD τ).loc main_arg6) : S32.Idx → Elt F .f32) (eq_ix1 i).symm)

end Cert.KernelIdeal.Host

end
-- ==== Proof.IdealValue.lean ====
import proofs.«181717_g4698694221856_cont_8to1c4_439_7_alg».proof.Proof.IdealRun
import proofs.«181717_g4698694221856_cont_8to1c4_439_7_alg».proof.Proof.IdealRunCond
import proofs.«181717_g4698694221856_cont_8to1c4_439_7_alg».proof.Proof.IdealV0
import proofs.«181717_g4698694221856_cont_8to1c4_439_7_alg».proof.Proof.IdealV1
import proofs.«181717_g4698694221856_cont_8to1c4_439_7_alg».proof.Proof.IdealHost
import proofs.«181717_g4698694221856_cont_8to1c4_439_7_alg».proof.Proof.Spec

set_option maxRecDepth 16384

noncomputable section

namespace Cert.KernelIdeal.RunV

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

local notation "𝕄" => MT nD τ sig Unit (Elt Ideal) ℕ (UR sig nD τ) ℕ

variable (m : (ℓ : Loc nD τ sig) → Buf (Elt Ideal) ℓ)

/-! # The idealized kernel's result as the network of its arguments

The first kernel's output array is the hidden layer of the buffers it is entered from; those are the launch contents
but for the two reshaped bias rows, which read as the bias vectors. The second kernel's output array is the output layer
of the buffers IT is entered from: the launch contents, the reshaped rows, and the hidden layer the first kernel left. -/

/-- An argument no reshape writes is at its launch contents when the first kernel is entered. -/
theorem U1_arg (c : Dev nD) (r : Ref sig .tc) (h : r ∉ Gen.hostOps0_W) : Run.U1 m c r = m ((c : Thread nD τ).loc r) :=
  Gen.V1_of m c r h

/-- The hidden layer's buffer after the first kernel. -/
theorem hidden_eq (c : Dev nD) :
    Run.U2 m c main_v2 = Cert.Spec.hidden (m ((c : Thread nD τ).loc main_arg0)) (m ((c : Thread nD τ).loc main_arg2))
      (m ((c : Thread nD τ).loc main_arg3)) (m ((c : Thread nD τ).loc main_arg4)) := by
  rw [Run.W2_self, V0.final (Run.U1 m) c, U1_arg m c main_arg0 (by decide), U1_arg m c main_arg2 (by decide),
    U1_arg m c main_arg3 (by decide)]
  exact congrArg (Cert.Spec.hidden _ _ _) (Host.b1_eq m c)

/-- What the second kernel leaves in the result's buffer is the whole network of the launch contents. -/
theorem result_eq (c : Dev nD) :
    Run.outs m 3 main_v3 c = Cert.Spec.G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [Run.outs_3]; unfold Run.X3
  rw [V1.final (Run.U2 m) c, hidden_eq,
    Run.W2_of_ne m c main_arg1 (by decide), U1_arg m c main_arg1 (by decide),
    Run.W2_of_ne m c main_arg5 (by decide), U1_arg m c main_arg5 (by decide)]
  unfold Cert.Spec.G
  refine congrArg (Cert.Spec.outOf _ _ _) ?_
  have e : (fun i : S32.Idx => Run.U2 m c main_v1 (ix2 (0 : Fin 1) (i 0))) = fun i : S32.Idx => (Gen.V1 m c main_v1 : S1x32.Idx → Elt Ideal .f32) (ix2 (0 : Fin 1) (i 0)) :=
    funext fun i => congrFun (Run.W2_of_ne m c main_v1 (by decide)) _
  exact e.trans (Host.b2_eq m c)

set_option backward.isDefEq.respectTransparency.types false in
/-- Every weakly fair execution of the idealized kernel's program terminates with the result buffer at the network of the
    launch contents and every argument array as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v3) = Cert.Spec.G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m c), (h c).2⟩)
    (Gen.run_cond m emb₁ () Variants.none Run.L Run.lv (fun _ _ => rfl) ρ (Run.outs m) (Run.pdats m) 0 (fun _ => iprop(emp))
      (initOf (Pipeline.cells cfgs cellOf_inj) (Pipeline.launchToks cfgs cellOf_inj)) Run.hu₀
      (fun _ c => Run.Rr c) (Run.hE0 ρ)
      (fun c => by iintro ⟨-, HO⟩; iexact HO)
      (Run.reg0 m) (fun c => .rfl) (fun c => by rw [Run.V2_eq]; exact .rfl)
      (Run.reg1 m) (fun c => by rw [Run.V2_eq]; exact .rfl) (fun c => by rw [Run.V3_eq]; exact .rfl))

end Cert.KernelIdeal.RunV

end
-- ==== Proof.RefValue.lean ====
import proofs.«181717_g4698694221856_cont_8to1c4_439_7_alg».proof.Proof.Gen.ReferenceIdeal.Read
import proofs.«181717_g4698694221856_cont_8to1c4_439_7_alg».proof.Proof.Spec

/- The reference program's result, read at an index, is the two-layer graph convolution `Cert.Spec.G`.

   Each operation of the reference is read at an index by the generated `val_main_vN_apply` lemmas; the composed
   index functions they leave behind are indices built from coordinates (`ix2`, `ix1`).  The hidden layer is
   identified first (`hidden_eq`), then the output layer over it (`ref_is_G`). -/

noncomputable section

namespace Cert.RefValue

open Idealize.ShloMosaic Idealize.ShloMosaic.ValueIdx Cert.ReferenceIdeal Cert.ReferenceIdeal.Read

/-! ## The index functions of the reads are indices from coordinates -/

/-- Row `i 0`, column `k` of `x`. -/
theorem lidx_v0 (i : S8192x64.Idx) (k : Fin 128) : lidx_main_v0 i k = ix2 (i 0) k :=
  funext fun a => Fin.ext (by match a with | ⟨0, _⟩ => rfl | ⟨1, _⟩ => rfl)
/-- Row `k`, column `i 1` of `W1`. -/
theorem ridx_v0 (i : S8192x64.Idx) (k : Fin 128) : ridx_main_v0 i k = ix2 k (i 1) :=
  funext fun a => Fin.ext (by match a with | ⟨0, _⟩ => rfl | ⟨1, _⟩ => rfl)
/-- Row `i 0`, column `k` of `FN`. -/
theorem lidx_v1 (i : S8192x64.Idx) (k : Fin 8192) : lidx_main_v1 i k = ix2 (i 0) k :=
  funext fun a => Fin.ext (by match a with | ⟨0, _⟩ => rfl | ⟨1, _⟩ => rfl)
/-- Row `k`, column `i 1` of the first projection. -/
theorem ridx_v1 (i : S8192x64.Idx) (k : Fin 8192) : ridx_main_v1 i k = ix2 k (i 1) :=
  funext fun a => Fin.ext (by match a with | ⟨0, _⟩ => rfl | ⟨1, _⟩ => rfl)
/-- The first bias, broadcast along the rows, is read at column `i 1`. -/
theorem idx_v23 (i : S8192x64.Idx) : idx_main_v2 (idx_main_v3 i) = ix1 (i 1) :=
  funext fun a => Fin.ext (by match a with | ⟨0, _⟩ => rfl)
/-- Row `i 0`, column `k` of the hidden layer. -/
theorem lidx_v6 (i : S8192x32.Idx) (k : Fin 64) : lidx_main_v6 i k = ix2 (i 0) k :=
  funext fun a => Fin.ext (by match a with | ⟨0, _⟩ => rfl | ⟨1, _⟩ => rfl)
/-- Row `k`, column `i 1` of `W2`. -/
theorem ridx_v6 (i : S8192x32.Idx) (k : Fin 64) : ridx_main_v6 i k = ix2 k (i 1) :=
  funext fun a => Fin.ext (by match a with | ⟨0, _⟩ => rfl | ⟨1, _⟩ => rfl)
/-- Row `i 0`, column `k` of `NF`. -/
theorem lidx_v7 (i : S8192x32.Idx) (k : Fin 8192) : lidx_main_v7 i k = ix2 (i 0) k :=
  funext fun a => Fin.ext (by match a with | ⟨0, _⟩ => rfl | ⟨1, _⟩ => rfl)
/-- Row `k`, column `i 1` of the second projection. -/
theorem ridx_v7 (i : S8192x32.Idx) (k : Fin 8192) : ridx_main_v7 i k = ix2 k (i 1) :=
  funext fun a => Fin.ext (by match a with | ⟨0, _⟩ => rfl | ⟨1, _⟩ => rfl)
/-- The second bias, broadcast along the rows, is read at column `i 1`. -/
theorem idx_v89 (i : S8192x32.Idx) : idx_main_v8 (idx_main_v9 i) = ix1 (i 1) :=
  funext fun a => Fin.ext (by match a with | ⟨0, _⟩ => rfl)

/-! ## The hidden layer -/

/-- The first `dot_general` is the first layer's projection. -/
theorem proj1_eq (x0 : (⟨S8192x128, .f32⟩ : BufTy).Contents (Elt Ideal)) (x3 : (⟨S128x64, .f32⟩ : BufTy).Contents (Elt Ideal)) :
    val_main_v0 (F := Ideal) x0 x3 = Cert.Spec.proj1 x0 x3 := by
  funext i
  rw [val_main_v0_apply]
  unfold Cert.Spec.proj1
  refine Finset.sum_congr rfl fun k _ => ?_
  rw [lidx_v0, ridx_v0]
  rfl

/-- The relu of the second `dot_general` plus the broadcast bias is the hidden layer. -/
theorem hidden_eq (x0 : (⟨S8192x128, .f32⟩ : BufTy).Contents (Elt Ideal)) (x2 : (⟨S8192x8192, .f32⟩ : BufTy).Contents (Elt Ideal))
    (x3 : (⟨S128x64, .f32⟩ : BufTy).Contents (Elt Ideal)) (x4 : (⟨S64, .f32⟩ : BufTy).Contents (Elt Ideal)) :
    val_main_v5 (F := Ideal) x0 x2 x3 x4 = Cert.Spec.hidden x0 x2 x3 x4 := by
  funext i
  rw [val_main_v5_apply, val_main_v4_apply, val_main_v1_apply, val_main_v3_apply, val_main_v2_apply,
    val_main_call0_v0_apply, val_main_call0_cst_apply, proj1_eq, idx_v23,
    Ideal.maximumf_def, Ideal.addf_def, Ideal.ofBits_def, Ideal.ofBits_zero_f32]
  unfold Cert.Spec.hidden
  congr 2
  refine Finset.sum_congr rfl fun k _ => ?_
  rw [lidx_v1, ridx_v1]
  rfl

/-! ## The output layer -/

/-- The third `dot_general` is the second layer's projection of the hidden layer. -/
theorem proj2_eq (x0 : (⟨S8192x128, .f32⟩ : BufTy).Contents (Elt Ideal)) (x2 : (⟨S8192x8192, .f32⟩ : BufTy).Contents (Elt Ideal))
    (x3 : (⟨S128x64, .f32⟩ : BufTy).Contents (Elt Ideal)) (x4 : (⟨S64, .f32⟩ : BufTy).Contents (Elt Ideal))
    (x5 : (⟨S64x32, .f32⟩ : BufTy).Contents (Elt Ideal)) :
    val_main_v6 (F := Ideal) x0 x2 x3 x4 x5 = Cert.Spec.proj2 (Cert.Spec.hidden x0 x2 x3 x4) x5 := by
  funext i
  rw [val_main_v6_apply, hidden_eq]
  unfold Cert.Spec.proj2
  refine Finset.sum_congr rfl fun k _ => ?_
  rw [lidx_v6, ridx_v6]
  rfl

/-- The reference's result is the network `G` of its seven arguments
    (`x0 = x`, `x1 = NF`, `x2 = FN`, `x3 = W1`, `x4 = b1`, `x5 = W2`, `x6 = b2`). -/
theorem ref_is_G
    (x0 : (⟨Cert.ReferenceIdeal.S8192x128, .f32⟩ : BufTy).Contents (Elt Ideal)) (x1 x2 : (⟨Cert.ReferenceIdeal.S8192x8192, .f32⟩ : BufTy).Contents (Elt Ideal))
    (x3 : (⟨Cert.ReferenceIdeal.S128x64, .f32⟩ : BufTy).Contents (Elt Ideal)) (x4 : (⟨Cert.ReferenceIdeal.S64, .f32⟩ : BufTy).Contents (Elt Ideal))
    (x5 : (⟨Cert.ReferenceIdeal.S64x32, .f32⟩ : BufTy).Contents (Elt Ideal)) (x6 : (⟨Cert.ReferenceIdeal.S32, .f32⟩ : BufTy).Contents (Elt Ideal)) :
    Cert.ReferenceIdeal.Read.val_main_v10 (F := Ideal) x0 x1 x2 x3 x4 x5 x6 = Cert.Spec.G x0 x1 x2 x3 x4 x5 x6 := by
  funext i
  rw [val_main_v10_apply, val_main_v7_apply, val_main_v9_apply, val_main_v8_apply, proj2_eq, idx_v89, Ideal.addf_def]
  unfold Cert.Spec.G Cert.Spec.outOf
  congr 1
  refine Finset.sum_congr rfl fun k _ => ?_
  rw [lidx_v7, ridx_v7]
  rfl

end Cert.RefValue

end
-- ==== Proof.lean ====
/- The kernel and its reference compute one function of their seven arguments over the extended reals: a two-layer
   graph convolution out = NF · (max (FN · (x · W1) + b1) 0 · W2) + b2. The kernel runs each layer as a pipelined region
   of 32 grid points: at the first point the layer's projection (x · W1, then h · W2) is computed whole and kept; at every
   point a block of 256 rows of the dense matrix, fetched as its two column halves, is multiplied against the two row
   halves of that projection, the two products are added, then the bias (and, in the first layer, the clamp at zero).
   The reference contracts all 8192 columns at once. The two agree because a sum over 8192 terms is the sum of its two
   halves in any commutative additive monoid, so nothing is asked of the inputs beyond what the claim states.
   The three frames: each kernel program by the launch of its two regions (the dense matrix's buffer dealt to its two
   windows in halves; the projection carried between points in the region's invariant); the reference by its run with
   the result dropped. -/
import proofs.«181717_g4698694221856_cont_8to1c4_439_7_alg».proof.Defs
import proofs.«181717_g4698694221856_cont_8to1c4_439_7_alg».proof.Proof.Gen.Kernel
import proofs.«181717_g4698694221856_cont_8to1c4_439_7_alg».proof.Proof.Gen.KernelIdeal
import proofs.«181717_g4698694221856_cont_8to1c4_439_7_alg».proof.Proof.Gen.ReferenceIdeal
import proofs.«181717_g4698694221856_cont_8to1c4_439_7_alg».proof.Proof.Gen.Pre_finite_inputs
import proofs.«181717_g4698694221856_cont_8to1c4_439_7_alg».proof.Proof.Gen.ReferenceIdeal.Run
import proofs.«181717_g4698694221856_cont_8to1c4_439_7_alg».proof.Proof.Gen.ReferenceIdeal.Read
import proofs.«181717_g4698694221856_cont_8to1c4_439_7_alg».proof.Proof.BitsRun
import proofs.«181717_g4698694221856_cont_8to1c4_439_7_alg».proof.Proof.IdealRun
import proofs.«181717_g4698694221856_cont_8to1c4_439_7_alg».proof.Proof.IdealValue
import proofs.«181717_g4698694221856_cont_8to1c4_439_7_alg».proof.Proof.RefValue
import proofs.«181717_g4698694221856_cont_8to1c4_439_7_alg».proof.Proof.Spec
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Run.frame m ρ,
  fun m ρ _ => Cert.KernelIdeal.Run.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
      Cert.KernelIdeal.RunV.run m ρ,
      (θ_run Cert.ReferenceIdeal.defs _ _).mono
        (fun _ h c => ⟨by
          rw [(h c).1, Cert.ReferenceIdeal.Read.val_main_v10_eq, Cert.RefValue.ref_is_G, (hagree c).1, (hagree c).2.1, (hagree c).2.2.1,
            (hagree c).2.2.2.1, (hagree c).2.2.2.2.1, (hagree c).2.2.2.2.2.1, (hagree c).2.2.2.2.2.2], (h c).2⟩)
        (Cert.ReferenceIdeal.Value.run (F := Ideal) m' ρ')⟩⟩

end Cert.Proof

end
